-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x49152 : Shape := ⟨2, ![1024, 49152]⟩
abbrev S1024 : Shape := ⟨1, ![1024]⟩
abbrev S2048x49152 : Shape := ⟨2, ![2048, 49152]⟩
abbrev S49152x2048 : Shape := ⟨2, ![49152, 2048]⟩
abbrev S2048 : Shape := ⟨1, ![2048]⟩
abbrev S_ : Shape := ⟨0, ![]⟩

class Facts : Prop where
  bcast_S_S1024x49152 : S_.BroadcastsInDim S1024x49152 (![] : Fin 0 → Fin S1024x49152.rank)
  reducesTo_S1024x49152_S_d0_1 : S1024x49152.ReducesTo [0, 1] S_
  h_S_ : 0 < S_.numel
  bcast_S_S2048x49152 : S_.BroadcastsInDim S2048x49152 (![] : Fin 0 → Fin S2048x49152.rank)
  reducesTo_S2048x49152_S_d0_1 : S2048x49152.ReducesTo [0, 1] S_
  bcast_S_S49152x2048 : S_.BroadcastsInDim S49152x2048 (![] : Fin 0 → Fin S49152x2048.rank)
  reducesTo_S49152x2048_S_d0_1 : S49152x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S1024x49152 .f32) (main_arg1 : IVec S1024 32) (main_arg2 : FVec F S2048x49152 .f32) (main_arg3 : FVec F S49152x2048 .f32) (main_arg4 : FVec F S2048 .f32) : IVec S_ 1 :=
  let main_v0 : FVec F S1024x49152 .f32 := Host.absf main_arg0
  let main_cst : FVec F S_ .f32 := constant S_ .f32 0x7F800000#32
  let main_v1 : FVec F S1024x49152 .f32 := broadcastInDim S1024x49152 ![] bcast_S_S1024x49152 main_cst
  let main_v2 : IVec S1024x49152 1 := cmpf .olt main_v0 main_v1
  let main_c : IVec S_ 1 := constantI S_ 1 1#1
  let main_v3 : IVec S_ 1 := (fun x v => Host.reduce IntOp.andi x v reducesTo_S1024x49152_S_d0_1 h_S_) main_v2 main_c
  let main_v4 : FVec F S2048x49152 .f32 := Host.absf main_arg2
  let main_cst_0 : FVec F S_ .f32 := constant S_ .f32 0x7F800000#32
  let main_v5 : FVec F S2048x49152 .f32 := broadcastInDim S2048x49152 ![] bcast_S_S2048x49152 main_cst_0
  let main_v6 : IVec S2048x49152 1 := cmpf .olt main_v4 main_v5
  let main_c_1 : IVec S_ 1 := constantI S_ 1 1#1
  let main_v7 : IVec S_ 1 := (fun x v => Host.reduce IntOp.andi x v reducesTo_S2048x49152_S_d0_1 h_S_) main_v6 main_c_1
  let main_v8 : IVec S_ 1 := andi main_v3 main_v7
  let main_v9 : FVec F S49152x2048 .f32 := Host.absf main_arg3
  let main_cst_2 : FVec F S_ .f32 := constant S_ .f32 0x7F800000#32
  let main_v10 : FVec F S49152x2048 .f32 := broadcastInDim S49152x2048 ![] bcast_S_S49152x2048 main_cst_2
  let main_v11 : IVec S49152x2048 1 := cmpf .olt main_v9 main_v10
  let main_c_3 : IVec S_ 1 := constantI S_ 1 1#1
  let main_v12 : IVec S_ 1 := (fun x v => Host.reduce IntOp.andi x v reducesTo_S49152x2048_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S1024x49152 : Shape := ⟨2, ![1024, 49152]⟩
abbrev S1024 : Shape := ⟨1, ![1024]⟩
abbrev S2048x49152 : Shape := ⟨2, ![2048, 49152]⟩
abbrev S49152x2048 : Shape := ⟨2, ![49152, 2048]⟩
abbrev S2048 : Shape := ⟨1, ![2048]⟩
abbrev S1x2048 : Shape := ⟨2, ![1, 2048]⟩
abbrev S1024x2048 : Shape := ⟨2, ![1024, 2048]⟩
abbrev S512x512 : Shape := ⟨2, ![512, 512]⟩
abbrev S512x2048 : Shape := ⟨2, ![512, 2048]⟩
abbrev S2048x2048 : Shape := ⟨2, ![2048, 2048]⟩
abbrev S1024x512 : Shape := ⟨2, ![1024, 512]⟩
abbrev S_ : Shape := ⟨0, ![]⟩
abbrev S64x2048 : Shape := ⟨2, ![64, 2048]⟩
abbrev S1024x1 : Shape := ⟨2, ![1024, 1]⟩
abbrev S64 : Shape := ⟨1, ![64]⟩
abbrev S64x1 : Shape := ⟨2, ![64, 1]⟩
abbrev S2048x64 : Shape := ⟨2, ![2048, 64]⟩
abbrev S2048x1 : Shape := ⟨2, ![2048, 1]⟩
abbrev S1x64 : Shape := ⟨2, ![1, 64]⟩

abbrev nBuf : Space → Nat
  | .hbm => 41
  | .vmem => 16
  | .smem => 0
  | _ => 0

abbrev bufTy : (tb : Table) → Fin (tcTables nBuf tb) → BufTy
  | .hbm, ⟨0, _⟩ => ⟨S1024x49152, .f32⟩
  | .hbm, ⟨1, _⟩ => ⟨S1024, .i32⟩
  | .hbm, ⟨2, _⟩ => ⟨S2048x49152, .f32⟩
  | .hbm, ⟨3, _⟩ => ⟨S49152x2048, .f32⟩
  | .hbm, ⟨4, _⟩ => ⟨S2048, .f32⟩
  | .hbm, ⟨5, _⟩ => ⟨S1x2048, .f32⟩
  | .hbm, ⟨6, _⟩ => ⟨S1024x2048, .f32⟩
  | .hbm, ⟨7, _⟩ => ⟨S1x2048, .f32⟩
  | .hbm, ⟨8, _⟩ => ⟨S2048x2048, .f32⟩
  | .hbm, ⟨9, _⟩ => ⟨S_, .f32⟩
  | .hbm, ⟨10, _⟩ => ⟨S64x2048, .f32⟩
  | .hbm, ⟨11, _⟩ => ⟨S1024x1, .i32⟩
  | .hbm, ⟨12, _⟩ => ⟨S64x2048, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S64, .f32⟩
  | .hbm, ⟨17, _⟩ => ⟨S1024x1, .i32⟩
  | .hbm, ⟨18, _⟩ => ⟨S64, .f32⟩
  | .hbm, ⟨19, _⟩ => ⟨S64x1, .f32⟩
  | .hbm, ⟨20, _⟩ => ⟨S64x2048, .f32⟩
  | .hbm, ⟨21, _⟩ => ⟨S64x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S64x2048, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S2048x64, .f32⟩
  | .hbm, ⟨31, _⟩ => ⟨S2048x64, .f32⟩
  | .hbm, ⟨32, _⟩ => ⟨S2048x1, .f32⟩
  | .hbm, ⟨33, _⟩ => ⟨S1x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S_, .f32⟩
  | .hbm, ⟨38, _⟩ => ⟨S2048x64, .f32⟩
  | .hbm, ⟨39, _⟩ => ⟨S2048x64, .f32⟩
  | .hbm, ⟨40, _⟩ => ⟨S2048x64, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1024x512, .f32⟩
  | .local _ .vmem, ⟨9, _⟩ => ⟨S1024x512, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | _, _ => ⟨S1024x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v14 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 96], ![false, false]⟩

def k0_cond2 (i : grid0.Coords) : BitVec 1 :=
  let arg1 : BitVec 32 := BitVec.ofNat 32 (i 1).val
  let c95_i32 : BitVec 32 := 95#32
  let v13 : BitVec 1 := Scalar.cmpi .eq arg1 c95_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 96], ![false, false]⟩

def k1_cond2 (i : grid1.Coords) : BitVec 1 :=
  let arg1 : BitVec 32 := BitVec.ofNat 32 (i 1).val
  let c95_i32 : BitVec 32 := 95#32
  let v13 : BitVec 1 := Scalar.cmpi .eq arg1 c95_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  broadcasts_S1x2048_S1024x2048 : S1x2048.Broadcasts S1024x2048
  bcast_S_S64x2048 : S_.BroadcastsInDim S64x2048 (![] : Fin 0 → Fin S64x2048.rank)
  bcast_S1024_S1024x1_0 : S1024.BroadcastsInDim S1024x1 (![0] : Fin 1 → Fin S1024x1.rank)
  bcast_S_S1024 : S_.BroadcastsInDim S1024 (![] : Fin 0 → Fin S1024.rank)
  bcast_S_S64 : S_.BroadcastsInDim S64 (![] : Fin 0 → Fin S64.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  reducesTo_S2048x2048_S2048_d1 : S2048x2048.ReducesTo [1] S2048
  h_S_ : 0 < S_.numel
  reducesTo_S64x2048_S64_d1 : S64x2048.ReducesTo [1] S64
  transposes_S64x2048_S2048x64_1_0 : S64x2048.Transposes [1, 0] S2048x64
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  dot_S512x512_S512x2048_S512x2048_1_0_0_1_n_n_wf : DotDims.WF S512x512 S512x2048 S512x2048 [1] [0] [0] [1] [] []
  dot_S1024x512_S512x2048_S1024x2048_1_0_0_1_n_n_wf : DotDims.WF S1024x512 S512x2048 S1024x2048 [1] [0] [0] [1] [] []
  scatter_S64x2048_S1024x1_S1024x2048_1_0_0_1_wf : ScatterDims.WF S64x2048 S1024x1 S1024x2048 [1] [0] [0] 1
  scatter_S64_S1024x1_S1024_n_0_0_1_wf : ScatterDims.WF S64 S1024x1 S1024 [] [0] [0] 1
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x49152.size a
  hwx0_0 : ∀ i : grid0.Coords, EltTy.bits .f32 = 32 ∨ (Rect.block (s := S1024x49152) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S49152x2048.size a
  hwx0_1 : ∀ i : grid0.Coords, EltTy.bits .f32 = 32 ∨ (Rect.block (s := S49152x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S1024x2048.size a
  hwx0_3 : ∀ i : grid0.Coords, EltTy.bits .f32 = 32 ∨ (Rect.block (s := S1024x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x49152.size a
  hwx1_0 : ∀ i : grid1.Coords, EltTy.bits .f32 = 32 ∨ (Rect.block (s := S2048x49152) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S49152x2048.size a
  hwx1_1 : ∀ i : grid1.Coords, EltTy.bits .f32 = 32 ∨ (Rect.block (s := S49152x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x2048.size a
  hwx1_3 : ∀ i : grid1.Coords, EltTy.bits .f32 = 32 ∨ (Rect.block (s := S2048x2048) S1024x2048.size (cc1_transform_3 i) (hinb1_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def scatter_S64x2048_S1024x1_S1024x2048_1_0_0_1 : ScatterDims S64x2048 S1024x1 S1024x2048 where
  updateWindowDims := [1]
  insertedWindowDims := [0]
  scatterDimsToOperandDims := [0]
  indexVectorDim := 1
  wf := scatter_S64x2048_S1024x1_S1024x2048_1_0_0_1_wf
def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x49152 : Shape := ⟨2, ![1024, 49152]⟩
abbrev S1024 : Shape := ⟨1, ![1024]⟩
abbrev S2048x49152 : Shape := ⟨2, ![2048, 49152]⟩
abbrev S49152x2048 : Shape := ⟨2, ![49152, 2048]⟩
abbrev S2048 : Shape := ⟨1, ![2048]⟩
abbrev S1024x2048 : Shape := ⟨2, ![1024, 2048]⟩
abbrev S1x2048 : Shape := ⟨2, ![1, 2048]⟩
abbrev S2048x2048 : Shape := ⟨2, ![2048, 2048]⟩
abbrev S_ : Shape := ⟨0, ![]⟩
abbrev S64x2048 : Shape := ⟨2, ![64, 2048]⟩
abbrev S1024x1 : Shape := ⟨2, ![1024, 1]⟩
abbrev S64 : Shape := ⟨1, ![64]⟩
abbrev S64x1 : Shape := ⟨2, ![64, 1]⟩
abbrev S2048x64 : Shape := ⟨2, ![2048, 64]⟩
abbrev S2048x1 : Shape := ⟨2, ![2048, 1]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S1024x49152, .f32⟩
  | .hbm, ⟨1, _⟩ => ⟨S1024, .i32⟩
  | .hbm, ⟨2, _⟩ => ⟨S2048x49152, .f32⟩
  | .hbm, ⟨3, _⟩ => ⟨S49152x2048, .f32⟩
  | .hbm, ⟨4, _⟩ => ⟨S2048, .f32⟩
  | .hbm, ⟨5, _⟩ => ⟨S1024x2048, .f32⟩
  | .hbm, ⟨6, _⟩ => ⟨S1x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S64x2048, .f32⟩
  | .hbm, ⟨15, _⟩ => ⟨S1024x1, .i32⟩
  | .hbm, ⟨16, _⟩ => ⟨S64x2048, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S64, .f32⟩
  | .hbm, ⟨21, _⟩ => ⟨S1024x1, .i32⟩
  | .hbm, ⟨22, _⟩ => ⟨S64, .f32⟩
  | .hbm, ⟨23, _⟩ => ⟨S64x1, .f32⟩
  | .hbm, ⟨24, _⟩ => ⟨S64x2048, .f32⟩
  | .hbm, ⟨25, _⟩ => ⟨S64x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S64x2048, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S2048x64, .f32⟩
  | .hbm, ⟨35, _⟩ => ⟨S2048x64, .f32⟩
  | .hbm, ⟨36, _⟩ => ⟨S2048x1, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S2048x64, .f32⟩
  | .hbm, ⟨43, _⟩ => ⟨S2048x64, .f32⟩
  | .hbm, ⟨44, _⟩ => ⟨S2048x64, .f32⟩
  | _, _ => ⟨S1024x49152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S1x2048_S2048x2048_0_1 : S1x2048.BroadcastsInDim S2048x2048 (![0, 1] : Fin 2 → Fin S2048x2048.rank)
  bcast_S_S64x2048 : S_.BroadcastsInDim S64x2048 (![] : Fin 0 → Fin S64x2048.rank)
  bcast_S1024_S1024x1_0 : S1024.BroadcastsInDim S1024x1 (![0] : Fin 1 → Fin S1024x1.rank)
  bcast_S_S1024 : S_.BroadcastsInDim S1024 (![] : Fin 0 → Fin S1024.rank)
  bcast_S_S64 : S_.BroadcastsInDim S64 (![] : Fin 0 → Fin S64.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  reducesTo_S2048x2048_S2048_d1 : S2048x2048.ReducesTo [1] S2048
  h_S_ : 0 < S_.numel
  reducesTo_S64x2048_S64_d1 : S64x2048.ReducesTo [1] S64
  transposes_S64x2048_S2048x64_1_0 : S64x2048.Transposes [1, 0] S2048x64
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  dot_S1024x49152_S49152x2048_S1024x2048_1_0_0_1_n_n_wf : DotDims.WF S1024x49152 S49152x2048 S1024x2048 [1] [0] [0] [1] [] []
  dot_S2048x49152_S49152x2048_S2048x2048_1_0_0_1_n_n_wf : DotDims.WF S2048x49152 S49152x2048 S2048x2048 [1] [0] [0] [1] [] []
  scatter_S64x2048_S1024x1_S1024x2048_1_0_0_1_wf : ScatterDims.WF S64x2048 S1024x1 S1024x2048 [1] [0] [0] 1
  scatter_S64_S1024x1_S1024_n_0_0_1_wf : ScatterDims.WF S64 S1024x1 S1024 [] [0] [0] 1
  dot_S2048x2048_S2048x64_S2048x64_1_0_0_1_n_n_wf : DotDims.WF S2048x2048 S2048x64 S2048x64 [1] [0] [0] [1] [] []

variable [Facts₀]

def dot_S1024x49152_S49152x2048_S1024x2048_1_0_0_1_n_n : DotDims S1024x49152 S49152x2048 S1024x2048 where
  lhsContracting := [1]
  rhsContracting := [0]
  lhsNonContracting := [0]
  rhsNonContracting := [1]
  lhsBatch := []
  rhsBatch := []
  wf := dot_S1024x49152_S49152x2048_S1024x2048_1_0_0_1_n_n_wf
def dot_S2048x49152_S49152x2048_S2048x2048_1_0_0_1_n_n : DotDims S2048x49152 S49152x2048 S2048x2048 where
  lhsContracting := [1]
  rhsContracting := [0]
  lhsNonContracting := [0]
  rhsNonContracting := [1]
  lhsBatch := []
  rhsBatch := []
  wf := dot_S2048x49152_S49152x2048_S2048x2048_1_0_0_1_n_n_wf
def scatter_S64x2048_S1024x1_S1024x2048_1_0_0_1 : ScatterDims S64x2048 S1024x1 S1024x2048 where
  updateWindowDims := [1]
  insertedWindowDims := [0]
  scatterDimsToOperandDims := [0]
  indexVectorDim := 1
  wf := scatter_S64x2048_S1024x1_S1024x2048_1_0_0_1_wf
def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

class Facts : Prop extends Facts₀ where

variable [Facts]
-- ==== Proof.FrmB_R0Base.lean ====
/-
  The first matrix product of the program (the support images against the weights), as a grid of 2 x 96 points: row
  tile i of 512 rows, depth block k of 512 columns. What every point's run is stated over: a window's block read off
  the array as the region finds it, the two conditions of the body (k = 0: the accumulator is reset; k = 95: the
  accumulator plus the bias is stored to the result), where the result's window is idle, and the memrefs the body
  is called with.
-/
import proofs.«163044_j46351287059071_1_alg».proof.Proof.Gen.Kernel.Launch
import proofs.«163044_j46351287059071_1_alg».proof.Proof.Gen.Kernel.Skeleton
import proofs.«163044_j46351287059071_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The images' window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias's window (one block, fetched once) holds it at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first depth block" (k = 0), as the body computes it from the point's coordinates. -/
abbrev cond0_0 (i : grid0.Coords) : Prop := (Scalar.cmpi .ne (Scalar.extui (Scalar.cmpi .eq (BitVec.ofNat 32 (i 1).val) 0#32)) 0#32) = 1#1
/-- It holds at the points t with t mod 96 = 0. -/
theorem hcond0_0 : ∀ t : Fin cfg0.N, cond0_0 (grid0.coords t) ↔ t.val % 96 = 0 :=
  (by decide +kernel : ∀ t : Fin grid0.N, cond0_0 (grid0.coords t) ↔ t.val % 96 = 0)

/-- "This is the last depth block" (k = 95). -/
abbrev cond0_1 (i : grid0.Coords) : Prop := k0_cond2 i = 1#1
/-- It holds at the points t with t mod 96 = 95. -/
theorem hcond0_1 : ∀ t : Fin cfg0.N, cond0_1 (grid0.coords t) ↔ t.val % 96 = 95 :=
  (by decide +kernel : ∀ t : Fin grid0.N, cond0_1 (grid0.coords t) ↔ t.val % 96 = 95)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last depth block nothing is stored into the result's window: it is idle, -/
theorem idleAt0_3 : ∀ t : Fin cfg0.N, ¬cond0_1 (grid0.coords t) → cfg0.idle 3 (grid0.coords t) = true := by decide +kernel
/-- and not written back. -/
theorem noFlush0_3 : ∀ t : Fin cfg0.N, ¬cond0_1 (grid0.coords t) → (cfg0.win 3).flush t = false := by decide +kernel
/-- At the last depth block it is stored into. -/
theorem liveAt0_3 : ∀ t : Fin cfg0.N, cond0_1 (grid0.coords t) → cfg0.idle 3 (grid0.coords t) = false := by decide +kernel

/-! ## The memrefs the body is called with -/

/-- One staging buffer of the result's window, through which its contents are stated. -/
abbrev VO0_3 : View sig .tc .vmem S512x2048 .f32 := (Memref.whole cc0_stg3_0 : Memref sig .tc .vmem S512x2048 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x2048 .f32 := Memref.whole cc0_scratch0
abbrev VS0_0 : View sig .tc .vmem S512x2048 .f32 := scM0_0.view

/-- The scoped buffers that are neither a staging buffer of this product nor its accumulator, each at some contents:
    they pass through every point untouched. -/
abbrev others0 (c : Dev nD) : sProp 𝕄 :=
  Pipeline.scopedRestBut (Ix := Unit) (Name := ℕ) (U := UR sig nD τ) (Lvl := ℕ) (Val := Elt F) spec0 c [cc0_scratch0]

/-- What the region hands the body besides the windows: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.Kernel.Hand

end
-- ==== Proof.FrmB_R0RunA.lean ====
/-
  The body at a point of the FIRST depth block (k = 0, not the last): the accumulator is reset to zero and the block's
  product added; the result's window is not touched.
-/
import proofs.«163044_j46351287059071_1_alg».proof.Proof.FrmB_R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the accumulator, as pieces (last first), when k = 0, WITH the proof that on whole
    memrefs — the three inputs at their contents, the result's window at contents handed back untouched, the
    accumulator at anything — the body runs to the continuation with those pieces written. -/
noncomputable def kernelRun0_A (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .f32) (x1 : Vec F S512x2048 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrmB_R0RunB.lean ====
/-
  The body at a point of a MIDDLE depth block (0 < k < 95): the block's product is added to the accumulator as the
  point before left it; the result's window is not touched.
-/
import proofs.«163044_j46351287059071_1_alg».proof.Proof.FrmB_R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces when 0 < k < 95, over its contents `xs0` as the point before left them, with the run. -/
noncomputable def kernelRun0_B (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrmB_R0RunC.lean ====
/-
  The body at a point of the LAST depth block (k = 95): the block's product is added to the accumulator, and the
  accumulator plus the bias row is stored to the result's window.
-/
import proofs.«163044_j46351287059071_1_alg».proof.Proof.FrmB_R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result's and the accumulator's pieces when k = 95, over the accumulator's contents `xs0`, with the run. -/
noncomputable def kernelRun0_C (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrmB_R0Frame.lean ====
/-
  The first matrix product, point by point. At point t = 96 i + k the accumulator holds, after the body, the sum of
  the products of the depth blocks 0..k of row tile i (it is reset at k = 0); the result's window receives the
  accumulator plus the bias row at k = 95 and is idle elsewhere. Here: what the accumulator and the result's window
  hold after each point (by recursion on the point, each case's pieces read back), the region's invariant carrying the
  accumulator between points, the proof data, and the body's obligation at every point.
-/
import proofs.«163044_j46351287059071_1_alg».proof.Proof.FrmB_R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: nothing is stored into the result's window (a placeholder nothing consults). -/
def out0_A_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x512 .f32) (x1 : Vec F S512x2048 .f32) (x2 : Vec F S1x2048 .f32) : Vec F S512x2048 .f32 :=
  VO0_3.read (Elt F) (VO0_3.writes (Elt F) VO0_3.junk (kernelRun0_A c i arg2 harg2 arg3 harg3 arg4 harg4 arg5 harg5 arg6 harg6 hc0 hc1 x0 x1 x2).1)

/-- k = 0: the stores into the accumulator cover it. -/
theorem scover0_A_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x512 .f32) (x1 : Vec F S512x2048 .f32) (x2 : Vec F S1x2048 .f32) (y : S512x2048.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S512x2048.size (by sl_kernel_rfl) y

/-- k = 0: what the accumulator holds afterwards. -/
def sout0_A_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x512 .f32) (x1 : Vec F S512x2048 .f32) (x2 : Vec F S1x2048 .f32) : Vec F S512x2048 .f32 :=
  VS0_0.read (Elt F) (VS0_0.writes (Elt F) VS0_0.junk (kernelRun0_A c i arg2 harg2 arg3 harg3 arg4 harg4 arg5 harg5 arg6 harg6 hc0 hc1 x0 x1 x2).2.1)

/-- 0 < k < 95: nothing is stored into the result's window. -/
def out0_B_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x512 .f32) (x1 : Vec F S512x2048 .f32) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S512x2048.size (by sl_kernel_rfl) y

/-- 0 < k < 95: the accumulator afterwards, over what the point before left in it. -/
def sout0_B_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- k = 95: the store into the result's window covers its block. -/
theorem cover0_C_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y

/-- k = 95: what the result's window holds afterwards. -/
def out0_C_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y

/-- k = 95: the accumulator afterwards. -/
def sout0_C_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the result's window and the accumulator hold after each point -/

/-- After the body at position `n`: (the result's window, the accumulator) — the case the point is in, run on the point's
    input blocks, the accumulator taken from what position `n - 1` left. -/
def outsAt0 (c : Dev nD) : (n : ℕ) → n < cfg0.N → Vec F S512x2048 .f32 × Vec F S512x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 96 = 0 then
      if h1 : (n + 1) % 96 = 95 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 96 = 95 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 96 = 0) (h1 : ¬t.val % 96 = 95) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 96 = 0) (h1 : ¬t.val % 96 = 95) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 96 = 0) (h1 : t.val % 96 = 95) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: at the first point what the region hands over (the accumulator at anything); afterwards the
    accumulator at what the point before left, the other scoped buffers and the generator register as they come. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block and the result's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position mod 96 says which case it is in;
    the invariant hands over the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 192 := lt_of_lt_of_eq t.isLt (show cfg0.N = 192 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 96 = 0
  · by_cases h1 : t.val % 96 = 95
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 96 = 95
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 192 := N_0; omega)

end Cert.Kernel.Hand

end
-- ==== Proof.FrmB_R1Base.lean ====
/-
  The second matrix product of the program (the query images against the weights), as a grid of 2 x 96 points: row
  tile i of 1024 rows, depth block k of 512 columns. What every point's run is stated over: a window's block read off
  the array as the region finds it, the two conditions of the body (k = 0: the accumulator is reset; k = 95: the
  accumulator plus the bias is stored to the result), where the result's window is idle, and the memrefs the body
  is called with.
-/
import proofs.«163044_j46351287059071_1_alg».proof.Proof.Gen.Kernel.Launch
import proofs.«163044_j46351287059071_1_alg».proof.Proof.Gen.Kernel.Skeleton
import proofs.«163044_j46351287059071_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The images' window holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias's window (one block, fetched once) holds it at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first depth block" (k = 0), as the body computes it from the point's coordinates. -/
abbrev cond1_0 (i : grid1.Coords) : Prop := (Scalar.cmpi .ne (Scalar.extui (Scalar.cmpi .eq (BitVec.ofNat 32 (i 1).val) 0#32)) 0#32) = 1#1
/-- It holds at the points t with t mod 96 = 0. -/
theorem hcond1_0 : ∀ t : Fin cfg1.N, cond1_0 (grid1.coords t) ↔ t.val % 96 = 0 :=
  (by decide +kernel : ∀ t : Fin grid1.N, cond1_0 (grid1.coords t) ↔ t.val % 96 = 0)

/-- "This is the last depth block" (k = 95). -/
abbrev cond1_1 (i : grid1.Coords) : Prop := k1_cond2 i = 1#1
/-- It holds at the points t with t mod 96 = 95. -/
theorem hcond1_1 : ∀ t : Fin cfg1.N, cond1_1 (grid1.coords t) ↔ t.val % 96 = 95 :=
  (by decide +kernel : ∀ t : Fin grid1.N, cond1_1 (grid1.coords t) ↔ t.val % 96 = 95)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last depth block nothing is stored into the result's window: it is idle, -/
theorem idleAt1_3 : ∀ t : Fin cfg1.N, ¬cond1_1 (grid1.coords t) → cfg1.idle 3 (grid1.coords t) = true := by decide +kernel
/-- and not written back. -/
theorem noFlush1_3 : ∀ t : Fin cfg1.N, ¬cond1_1 (grid1.coords t) → (cfg1.win 3).flush t = false := by decide +kernel
/-- At the last depth block it is stored into. -/
theorem liveAt1_3 : ∀ t : Fin cfg1.N, cond1_1 (grid1.coords t) → cfg1.idle 3 (grid1.coords t) = false := by decide +kernel

/-! ## The memrefs the body is called with -/

/-- One staging buffer of the result's window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The scoped buffers that are neither a staging buffer of this product nor its accumulator, each at some contents:
    they pass through every point untouched. -/
abbrev others1 (c : Dev nD) : sProp 𝕄 :=
  Pipeline.scopedRestBut (Ix := Unit) (Name := ℕ) (U := UR sig nD τ) (Lvl := ℕ) (Val := Elt F) spec1 c [cc1_scratch0]

/-- What the region hands the body besides the windows: the accumulator at some contents, the other scoped buffers,
    the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand

end
-- ==== Proof.FrmB_R1RunA.lean ====
/-
  The body at a point of the FIRST depth block (k = 0, not the last): the accumulator is reset to zero and the block's
  product added; the result's window is not touched.
-/
import proofs.«163044_j46351287059071_1_alg».proof.Proof.FrmB_R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the accumulator, as pieces (last first), when k = 0, WITH the proof that on whole
    memrefs — the three inputs at their contents, the result's window at contents handed back untouched, the
    accumulator at anything — the body runs to the continuation with those pieces written. -/
noncomputable def kernelRun1_A (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .f32) (x1 : Vec F S512x2048 .f32) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrmB_R1RunB.lean ====
/-
  The body at a point of a MIDDLE depth block (0 < k < 95): the block's product is added to the accumulator as the
  point before left it; the result's window is not touched.
-/
import proofs.«163044_j46351287059071_1_alg».proof.Proof.FrmB_R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces when 0 < k < 95, over its contents `xs0` as the point before left them, with the run. -/
noncomputable def kernelRun1_B (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .f32) (x1 : Vec F S512x2048 .f32) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrmB_R1RunC.lean ====
/-
  The body at a point of the LAST depth block (k = 95): the block's product is added to the accumulator, and the
  accumulator plus the bias row is stored to the result's window.
-/
import proofs.«163044_j46351287059071_1_alg».proof.Proof.FrmB_R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result's and the accumulator's pieces when k = 95, over the accumulator's contents `xs0`, with the run. -/
noncomputable def kernelRun1_C (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .f32) (x1 : Vec F S512x2048 .f32) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrmB_R1Frame.lean ====
/-
  The second matrix product, point by point. At point t = 96 i + k the accumulator holds, after the body, the sum of
  the products of the depth blocks 0..k of row tile i (it is reset at k = 0); the result's window receives the
  accumulator plus the bias row at k = 95 and is idle elsewhere. Here: what the accumulator and the result's window
  hold after each point (by recursion on the point, each case's pieces read back), the region's invariant carrying the
  accumulator between points, the proof data, and the body's obligation at every point.
-/
import proofs.«163044_j46351287059071_1_alg».proof.Proof.FrmB_R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: nothing is stored into the result's window (a placeholder nothing consults). -/
def out1_A_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S512x2048 .f32) (x2 : Vec F S1x2048 .f32) : Vec F S1024x2048 .f32 :=
  VO1_3.read (Elt F) (VO1_3.writes (Elt F) VO1_3.junk (kernelRun1_A c i arg2 harg2 arg3 harg3 arg4 harg4 arg5 harg5 arg6 harg6 hc0 hc1 x0 x1 x2).1)

/-- k = 0: the stores into the accumulator cover it. -/
theorem scover1_A_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S512x2048 .f32) (x2 : Vec F S1x2048 .f32) (y : S1024x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x2048.size (by sl_kernel_rfl) y

/-- k = 0: what the accumulator holds afterwards. -/
def sout1_A_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S512x2048 .f32) (x2 : Vec F S1x2048 .f32) : Vec F S1024x2048 .f32 :=
  VS1_0.read (Elt F) (VS1_0.writes (Elt F) VS1_0.junk (kernelRun1_A c i arg2 harg2 arg3 harg3 arg4 harg4 arg5 harg5 arg6 harg6 hc0 hc1 x0 x1 x2).2.1)

/-- 0 < k < 95: nothing is stored into the result's window. -/
def out1_B_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S512x2048 .f32) (x2 : Vec F S1x2048 .f32) (xs0 : Vec F S1024x2048 .f32) : Vec F S1024x2048 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S512x2048 .f32) (x2 : Vec F S1x2048 .f32) (xs0 : Vec F S1024x2048 .f32) (y : S1024x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x2048.size (by sl_kernel_rfl) y

/-- 0 < k < 95: the accumulator afterwards, over what the point before left in it. -/
def sout1_B_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S512x2048 .f32) (x2 : Vec F S1x2048 .f32) (xs0 : Vec F S1024x2048 .f32) : Vec F S1024x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- k = 95: the store into the result's window covers its block. -/
theorem cover1_C_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y

/-- k = 95: what the result's window holds afterwards. -/
def out1_C_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) : Vec F S1024x2048 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y

/-- k = 95: the accumulator afterwards. -/
def sout1_C_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) : Vec F S1024x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the result's window and the accumulator hold after each point -/

/-- After the body at position `n`: (the result's window, the accumulator) — the case the point is in, run on the point's
    input blocks, the accumulator taken from what position `n - 1` left. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 96 = 0 then
      if h1 : (n + 1) % 96 = 95 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 96 = 95 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 96 = 0) (h1 : ¬t.val % 96 = 95) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 96 = 0) (h1 : ¬t.val % 96 = 95) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 96 = 0) (h1 : t.val % 96 = 95) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: at the first point what the region hands over (the accumulator at anything); afterwards the
    accumulator at what the point before left, the other scoped buffers and the generator register as they come. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block and the result's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position mod 96 says which case it is in;
    the invariant hands over the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 192 := lt_of_lt_of_eq t.isLt (show cfg1.N = 192 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 96 = 0
  · by_cases h1 : t.val % 96 = 95
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 96 = 95
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 192 := N_1; omega)

end Cert.Kernel.Hand

end
-- ==== Proof.FrmB_Launch.lean ====
/-
  The whole program as a list of items: a reshape of the bias, the first matrix product, a second reshape, the second
  matrix product, and four closing stretches of tensor operations. The contents of every unscoped buffer are followed
  from the launch memory through the items (a stretch rewrites the references it writes; a product rewrites its
  result's array with what its write-backs leave and nothing else), each argument array is read back through that fold to
  its launch contents, and the launch is taken once over all the items: every weakly fair execution terminates and every
  final memory holds each unscoped buffer at the last contents of the fold.
-/
import proofs.«163044_j46351287059071_1_alg».proof.Proof.FrmB_R0Frame
import proofs.«163044_j46351287059071_1_alg».proof.Proof.FrmB_R1Frame
import proofs.«163044_j46351287059071_1_alg».proof.Proof.Gen.Kernel.Launch
import proofs.«163044_j46351287059071_1_alg».proof.Proof.Gen.Kernel.Regions
import proofs.«163044_j46351287059071_1_alg».proof.Proof.Gen.Kernel.Skeleton
import proofs.«163044_j46351287059071_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary between two items of the program -/

/-- Core `c`'s buffers at launch. -/
abbrev W0 : Dev nD → Valuation τ sig (Elt F) := fun c b => m ((c : Dev nD), b)
/-- After the first reshape (the first product's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first product's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second reshape (the second product's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second product's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After each of the four closing stretches of tensor operations. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

theorem W8_eq (c : Dev nD) : W8 m c = StableHlo.after hostOps2_3 (StableHlo.after hostOps2_2 (StableHlo.after hostOps2_1 (StableHlo.after hostOps2 (W4 m c)))) := rfl

/-! ## What each item leaves unchanged

A stretch of tensor operations changes only the references it writes; a product changes only its windows' arrays, and of
those only the result's (an operand's array is never written back). -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h
theorem W7_of (c : Dev nD) (r : Ref sig .tc) (h : r ∉ hostOps2_2_W) : W7 m c (Proc.devRef .tc r) = W6 m c (Proc.devRef .tc r) :=
  StableHlo.after_of_writes_sub hostOps2_2 _ hostOps2_2_writes h
theorem W8_of (c : Dev nD) (r : Ref sig .tc) (h : r ∉ hostOps2_3_W) : W8 m c (Proc.devRef .tc r) = W7 m c (Proc.devRef .tc r) :=
  StableHlo.after_of_writes_sub hostOps2_3 _ hostOps2_3_writes h
/-- A reference none of the four closing stretches writes ends as the second product left it. -/
theorem W8_of_W4 (c : Dev nD) (r : Ref sig .tc) (h2 : r ∉ hostOps2_W) (h21 : r ∉ hostOps2_1_W) (h22 : r ∉ hostOps2_2_W) (h23 : r ∉ hostOps2_3_W) :
    W8 m c (Proc.devRef .tc r) = W4 m c (Proc.devRef .tc r) :=
  (W8_of m c r h23).trans <| (W7_of m c r h22).trans <| (W6_of m c r h21).trans (W5_of m c r h2)
/-- An operand's array leaves the first product as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An operand's array leaves the second product as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_in m c 0 rfl
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_in m c 1 rfl
    _ = W2 m c (Proc.devRef .tc main_arg3) := W3_of m c main_arg3 (by decide)
    _ = W1 m c (Proc.devRef .tc main_arg3) := W2_in m c 1 rfl
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W8_main_arg0 (c : Dev nD) : W8 m c (Proc.devRef .tc main_arg0) = m ((c : Thread nD τ).loc main_arg0) :=
  (W8_of_W4 m c main_arg0 (by decide) (by decide) (by decide) (by decide)).trans (W4_main_arg0 m c)
theorem W8_main_arg1 (c : Dev nD) : W8 m c (Proc.devRef .tc main_arg1) = m ((c : Thread nD τ).loc main_arg1) :=
  (W8_of_W4 m c main_arg1 (by decide) (by decide) (by decide) (by decide)).trans (W4_main_arg1 m c)
theorem W8_main_arg2 (c : Dev nD) : W8 m c (Proc.devRef .tc main_arg2) = m ((c : Thread nD τ).loc main_arg2) :=
  (W8_of_W4 m c main_arg2 (by decide) (by decide) (by decide) (by decide)).trans (W4_main_arg2 m c)
theorem W8_main_arg3 (c : Dev nD) : W8 m c (Proc.devRef .tc main_arg3) = m ((c : Thread nD τ).loc main_arg3) :=
  (W8_of_W4 m c main_arg3 (by decide) (by decide) (by decide) (by decide)).trans (W4_main_arg3 m c)
theorem W8_main_arg4 (c : Dev nD) : W8 m c (Proc.devRef .tc main_arg4) = m ((c : Thread nD τ).loc main_arg4) :=
  (W8_of_W4 m c main_arg4 (by decide) (by decide) (by decide) (by decide)).trans (W4_main_arg4 m c)

/-! ## What the two products leave, and what they are entered with -/

/-- The first product's result as the closing stretches find it: what its write-backs leave. -/
theorem W4_main_v1 (c : Dev nD) : W4 m c (Proc.devRef .tc main_v1) = (dat0 (V1 m) c).arrAt 3 cfg0.N :=
  calc W4 m c (Proc.devRef .tc main_v1)
    _ = W3 m c (Proc.devRef .tc main_v1) := W4_of_ne m c main_v1 (by decide)
    _ = W2 m c (Proc.devRef .tc main_v1) := W3_of m c main_v1 (by decide)
    _ = (dat0 (V1 m) c).arrAt 3 cfg0.N := W2_arr m c 3
/-- The second product's result as the closing stretches find it. -/
theorem W4_main_v3 (c : Dev nD) : W4 m c (Proc.devRef .tc main_v3) = (dat1 (V3 m) c).arrAt 3 cfg1.N :=
  W4_arr m c 3

theorem V1_main_arg0 (c : Dev nD) : V1 m c main_arg0 = m ((c : Thread nD τ).loc main_arg0) :=
  (W1_of m c main_arg0 (by decide)).trans rfl
theorem V1_main_arg3 (c : Dev nD) : V1 m c main_arg3 = m ((c : Thread nD τ).loc main_arg3) :=
  (W1_of m c main_arg3 (by decide)).trans rfl
theorem V3_main_arg2 (c : Dev nD) : V3 m c main_arg2 = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem V3_main_arg3 (c : Dev nD) : V3 m c main_arg3 = m ((c : Thread nD τ).loc main_arg3) :=
  calc W3 m c (Proc.devRef .tc main_arg3)
    _ = W2 m c (Proc.devRef .tc main_arg3) := W3_of m c main_arg3 (by decide)
    _ = W1 m c (Proc.devRef .tc main_arg3) := W2_in m c 1 rfl
    _ = W0 m c (Proc.devRef .tc main_arg3) := W1_of m c main_arg3 (by decide)
    _ = m ((c : Thread nD τ).loc main_arg3) := rfl

/-- The bias row as the first product finds it: the bias argument read in row-major order at one row. -/
theorem V1_main_v0 (c : Dev nD) : V1 m c main_v0
    = fun i => (rfl : main_arg4.ty.elt = main_v0.ty.elt) ▸ shapeCast main_v0.ty.shape (m ((c : Thread nD τ).loc main_arg4)) shapeCasts_S2048_S1x2048 i := by
  show StableHlo.after hostOps0 (W0 m c) (Proc.devRef .tc main_v0) = _
  after_results
/-- The bias row as the second product finds it. -/
theorem V3_main_v2 (c : Dev nD) : V3 m c main_v2
    = fun i => (rfl : main_arg4.ty.elt = main_v2.ty.elt) ▸ shapeCast main_v2.ty.shape (m ((c : Thread nD τ).loc main_arg4)) shapeCasts_S2048_S1x2048 i := by
  show StableHlo.after hostOps1 (W2 m c) (Proc.devRef .tc main_v2) = _
  after_results
  rw [W2_of_ne m c main_arg4 (by decide), W1_of m c main_arg4 (by decide)]

/-! ## The proof data family and the thread state -/

/-- Each product's proof data at its own entry contents: one case per product. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the random-number register at some state and the core owing nothing. -/
abbrev R (c : Dev nD) : sProp 𝕄 := iprop((∃ r, prngReg c r) ∗ ∃ W, owes (c : Thread nD τ) (0 : CellTallies nD τ sig Unit) W)
/-- A stretch of tensor operations as a segment: over the unscoped references from the contents `W`, `R` riding along;
    it ends with those references at what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the random-number
    register at some state. -/
abbrev Tₙ (c : Dev nD) : sProp 𝕄 := iprop(StableHlo.held (c : Thread nD τ) (Pipeline.ucRefs τ sig) (W8 m c) ∗ ∃ r, prngReg c r)

/-! ## The two products as segments -/

-- the library's lemmas are stated over a pinned configuration, which must unfold to the printed one
set_option backward.isDefEq.respectTransparency.types false in
/-- Product 0 over the thread state: entered from every unscoped buffer at `W1`, left at `W2`. Its arrays
    are split out of the unscoped buffers and put back at the exit contents; the random-number register and the scoped
    buffers no window stages go into the product's invariant at its first point and come back from it at its last;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration, which must unfold to the printed one
set_option backward.isDefEq.respectTransparency.types false in
/-- Product 1 over the thread state: entered from every unscoped buffer at `W3`, left at `W4`. Its arrays
    are split out of the unscoped buffers and put back at the exit contents; the random-number register and the scoped
    buffers no window stages go into the product's invariant at its first point and come back from it at its last;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 8 items in order: a segment per stretch of tensor operations from its boundary's contents, a region
    per product. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]
/-- The program is the run of the segments: it is the chain of its items, and so is the segments' run. -/
theorem main_run (c : Dev nD) : main (F := F) c = Pipeline.Seg.run (segs m) :=
  (main_chain c).trans (by rw [Pipeline.Seg.run_eq_chain]; rfl)

/-- The last stretch's exit is the last thread state beside the core owing nothing. -/
theorem last_state (c : Dev nD) : (iprop(StableHlo.held (c : Thread nD τ) (Pipeline.ucRefs τ sig) (W8 m c) ∗ R c) : sProp 𝕄)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's conclusion is stated over pinned configurations, which must unfold to the printed ones
set_option backward.isDefEq.respectTransparency.types false in
/-- THE RUN. From any memory with zero counters every weakly fair execution of the program terminates, nothing
    faulting, and in every final state each unscoped buffer holds what the fold through the program says (`W8`). -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: every argument array ends as launched, each read off the last boundary's contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩) (run_all m ρ)

end Cert.Kernel.Hand

end
-- ==== Proof.FrmI_R0Base.lean ====
/-
  The first matrix product of the program (the support images against the weights), as a grid of 2 x 96 points: row
  tile i of 512 rows, depth block k of 512 columns. What every point's run is stated over: a window's block read off
  the array as the region finds it, the two conditions of the body (k = 0: the accumulator is reset; k = 95: the
  accumulator plus the bias is stored to the result), where the result's window is idle, and the memrefs the body
  is called with.
-/
import proofs.«163044_j46351287059071_1_alg».proof.Proof.Gen.KernelIdeal.Launch
import proofs.«163044_j46351287059071_1_alg».proof.Proof.Gen.KernelIdeal.Skeleton
import proofs.«163044_j46351287059071_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The images' window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias's window (one block, fetched once) holds it at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first depth block" (k = 0), as the body computes it from the point's coordinates. -/
abbrev cond0_0 (i : grid0.Coords) : Prop := (Scalar.cmpi .ne (Scalar.extui (Scalar.cmpi .eq (BitVec.ofNat 32 (i 1).val) 0#32)) 0#32) = 1#1
/-- It holds at the points t with t mod 96 = 0. -/
theorem hcond0_0 : ∀ t : Fin cfg0.N, cond0_0 (grid0.coords t) ↔ t.val % 96 = 0 :=
  (by decide +kernel : ∀ t : Fin grid0.N, cond0_0 (grid0.coords t) ↔ t.val % 96 = 0)

/-- "This is the last depth block" (k = 95). -/
abbrev cond0_1 (i : grid0.Coords) : Prop := k0_cond2 i = 1#1
/-- It holds at the points t with t mod 96 = 95. -/
theorem hcond0_1 : ∀ t : Fin cfg0.N, cond0_1 (grid0.coords t) ↔ t.val % 96 = 95 :=
  (by decide +kernel : ∀ t : Fin grid0.N, cond0_1 (grid0.coords t) ↔ t.val % 96 = 95)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last depth block nothing is stored into the result's window: it is idle, -/
theorem idleAt0_3 : ∀ t : Fin cfg0.N, ¬cond0_1 (grid0.coords t) → cfg0.idle 3 (grid0.coords t) = true := by decide +kernel
/-- and not written back. -/
theorem noFlush0_3 : ∀ t : Fin cfg0.N, ¬cond0_1 (grid0.coords t) → (cfg0.win 3).flush t = false := by decide +kernel
/-- At the last depth block it is stored into. -/
theorem liveAt0_3 : ∀ t : Fin cfg0.N, cond0_1 (grid0.coords t) → cfg0.idle 3 (grid0.coords t) = false := by decide +kernel

/-! ## The memrefs the body is called with -/

/-- One staging buffer of the result's window, through which its contents are stated. -/
abbrev VO0_3 : View sig .tc .vmem S512x2048 .f32 := (Memref.whole cc0_stg3_0 : Memref sig .tc .vmem S512x2048 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x2048 .f32 := Memref.whole cc0_scratch0
abbrev VS0_0 : View sig .tc .vmem S512x2048 .f32 := scM0_0.view

/-- The scoped buffers that are neither a staging buffer of this product nor its accumulator, each at some contents:
    they pass through every point untouched. -/
abbrev others0 (c : Dev nD) : sProp 𝕄 :=
  Pipeline.scopedRestBut (Ix := Unit) (Name := ℕ) (U := UR sig nD τ) (Lvl := ℕ) (Val := Elt F) spec0 c [cc0_scratch0]

/-- What the region hands the body besides the windows: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Hand

end
-- ==== Proof.FrmI_R0RunA.lean ====
/-
  The body at a point of the FIRST depth block (k = 0, not the last): the accumulator is reset to zero and the block's
  product added; the result's window is not touched.
-/
import proofs.«163044_j46351287059071_1_alg».proof.Proof.FrmI_R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the accumulator, as pieces (last first), when k = 0, WITH the proof that on whole
    memrefs — the three inputs at their contents, the result's window at contents handed back untouched, the
    accumulator at anything — the body runs to the continuation with those pieces written. -/
noncomputable def kernelRun0_A (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .f32) (x1 : Vec F S512x2048 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrmI_R0RunB.lean ====
/-
  The body at a point of a MIDDLE depth block (0 < k < 95): the block's product is added to the accumulator as the
  point before left it; the result's window is not touched.
-/
import proofs.«163044_j46351287059071_1_alg».proof.Proof.FrmI_R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces when 0 < k < 95, over its contents `xs0` as the point before left them, with the run. -/
noncomputable def kernelRun0_B (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨[], ?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrmI_R0RunC.lean ====
/-
  The body at a point of the LAST depth block (k = 95): the block's product is added to the accumulator, and the
  accumulator plus the bias row is stored to the result's window.
-/
import proofs.«163044_j46351287059071_1_alg».proof.Proof.FrmI_R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result's and the accumulator's pieces when k = 95, over the accumulator's contents `xs0`, with the run. -/
noncomputable def kernelRun0_C (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .f32) (x1 : Vec F S512x2048 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrmI_R0Frame.lean ====
/-
  The first matrix product, point by point. At point t = 96 i + k the accumulator holds, after the body, the sum of
  the products of the depth blocks 0..k of row tile i (it is reset at k = 0); the result's window receives the
  accumulator plus the bias row at k = 95 and is idle elsewhere. Here: what the accumulator and the result's window
  hold after each point (by recursion on the point, each case's pieces read back), the region's invariant carrying the
  accumulator between points, the proof data, and the body's obligation at every point.
-/
import proofs.«163044_j46351287059071_1_alg».proof.Proof.FrmI_R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: nothing is stored into the result's window (a placeholder nothing consults). -/
def out0_A_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x512 .f32) (x1 : Vec F S512x2048 .f32) (x2 : Vec F S1x2048 .f32) : Vec F S512x2048 .f32 :=
  VO0_3.read (Elt F) (VO0_3.writes (Elt F) VO0_3.junk (kernelRun0_A c i arg2 harg2 arg3 harg3 arg4 harg4 arg5 harg5 arg6 harg6 hc0 hc1 x0 x1 x2).1)

/-- k = 0: the stores into the accumulator cover it. -/
theorem scover0_A_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x512 .f32) (x1 : Vec F S512x2048 .f32) (x2 : Vec F S1x2048 .f32) (y : S512x2048.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S512x2048.size (by sl_kernel_rfl) y

/-- k = 0: what the accumulator holds afterwards. -/
def sout0_A_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec F S512x512 .f32) (x1 : Vec F S512x2048 .f32) (x2 : Vec F S1x2048 .f32) : Vec F S512x2048 .f32 :=
  VS0_0.read (Elt F) (VS0_0.writes (Elt F) VS0_0.junk (kernelRun0_A c i arg2 harg2 arg3 harg3 arg4 harg4 arg5 harg5 arg6 harg6 hc0 hc1 x0 x1 x2).2.1)

/-- 0 < k < 95: nothing is stored into the result's window. -/
def out0_B_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x512 .f32) (x1 : Vec F S512x2048 .f32) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S512x2048.size (by sl_kernel_rfl) y

/-- 0 < k < 95: the accumulator afterwards, over what the point before left in it. -/
def sout0_B_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- k = 95: the store into the result's window covers its block. -/
theorem cover0_C_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y

/-- k = 95: what the result's window holds afterwards. -/
def out0_C_3 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) : Vec F S512x2048 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y

/-- k = 95: the accumulator afterwards. -/
def sout0_C_0 (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec F S512x512 .f32) (x1 : Vec F S512x2048 .f32) (x2 : Vec F S1x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the result's window and the accumulator hold after each point -/

/-- After the body at position `n`: (the result's window, the accumulator) — the case the point is in, run on the point's
    input blocks, the accumulator taken from what position `n - 1` left. -/
def outsAt0 (c : Dev nD) : (n : ℕ) → n < cfg0.N → Vec F S512x2048 .f32 × Vec F S512x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 96 = 0 then
      if h1 : (n + 1) % 96 = 95 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 96 = 95 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 96 = 0) (h1 : ¬t.val % 96 = 95) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 96 = 0) (h1 : ¬t.val % 96 = 95) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 96 = 0) (h1 : t.val % 96 = 95) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: at the first point what the region hands over (the accumulator at anything); afterwards the
    accumulator at what the point before left, the other scoped buffers and the generator register as they come. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block and the result's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position mod 96 says which case it is in;
    the invariant hands over the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 192 := lt_of_lt_of_eq t.isLt (show cfg0.N = 192 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 96 = 0
  · by_cases h1 : t.val % 96 = 95
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 96 = 95
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 192 := N_0; omega)

end Cert.KernelIdeal.Hand

end
-- ==== Proof.FrmI_R1Base.lean ====
/-
  The second matrix product of the program (the query images against the weights), as a grid of 2 x 96 points: row
  tile i of 1024 rows, depth block k of 512 columns. What every point's run is stated over: a window's block read off
  the array as the region finds it, the two conditions of the body (k = 0: the accumulator is reset; k = 95: the
  accumulator plus the bias is stored to the result), where the result's window is idle, and the memrefs the body
  is called with.
-/
import proofs.«163044_j46351287059071_1_alg».proof.Proof.Gen.KernelIdeal.Launch
import proofs.«163044_j46351287059071_1_alg».proof.Proof.Gen.KernelIdeal.Skeleton
import proofs.«163044_j46351287059071_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The images' window holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias's window (one block, fetched once) holds it at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first depth block" (k = 0), as the body computes it from the point's coordinates. -/
abbrev cond1_0 (i : grid1.Coords) : Prop := (Scalar.cmpi .ne (Scalar.extui (Scalar.cmpi .eq (BitVec.ofNat 32 (i 1).val) 0#32)) 0#32) = 1#1
/-- It holds at the points t with t mod 96 = 0. -/
theorem hcond1_0 : ∀ t : Fin cfg1.N, cond1_0 (grid1.coords t) ↔ t.val % 96 = 0 :=
  (by decide +kernel : ∀ t : Fin grid1.N, cond1_0 (grid1.coords t) ↔ t.val % 96 = 0)

/-- "This is the last depth block" (k = 95). -/
abbrev cond1_1 (i : grid1.Coords) : Prop := k1_cond2 i = 1#1
/-- It holds at the points t with t mod 96 = 95. -/
theorem hcond1_1 : ∀ t : Fin cfg1.N, cond1_1 (grid1.coords t) ↔ t.val % 96 = 95 :=
  (by decide +kernel : ∀ t : Fin grid1.N, cond1_1 (grid1.coords t) ↔ t.val % 96 = 95)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last depth block nothing is stored into the result's window: it is idle, -/
theorem idleAt1_3 : ∀ t : Fin cfg1.N, ¬cond1_1 (grid1.coords t) → cfg1.idle 3 (grid1.coords t) = true := by decide +kernel
/-- and not written back. -/
theorem noFlush1_3 : ∀ t : Fin cfg1.N, ¬cond1_1 (grid1.coords t) → (cfg1.win 3).flush t = false := by decide +kernel
/-- At the last depth block it is stored into. -/
theorem liveAt1_3 : ∀ t : Fin cfg1.N, cond1_1 (grid1.coords t) → cfg1.idle 3 (grid1.coords t) = false := by decide +kernel

/-! ## The memrefs the body is called with -/

/-- One staging buffer of the result's window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The scoped buffers that are neither a staging buffer of this product nor its accumulator, each at some contents:
    they pass through every point untouched. -/
abbrev others1 (c : Dev nD) : sProp 𝕄 :=
  Pipeline.scopedRestBut (Ix := Unit) (Name := ℕ) (U := UR sig nD τ) (Lvl := ℕ) (Val := Elt F) spec1 c [cc1_scratch0]

/-- What the region hands the body besides the windows: the accumulator at some contents, the other scoped buffers,
    the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand

end
-- ==== Proof.FrmI_R1RunA.lean ====
/-
  The body at a point of the FIRST depth block (k = 0, not the last): the accumulator is reset to zero and the block's
  product added; the result's window is not touched.
-/
import proofs.«163044_j46351287059071_1_alg».proof.Proof.FrmI_R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the accumulator, as pieces (last first), when k = 0, WITH the proof that on whole
    memrefs — the three inputs at their contents, the result's window at contents handed back untouched, the
    accumulator at anything — the body runs to the continuation with those pieces written. -/
noncomputable def kernelRun1_A (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .f32) (x1 : Vec F S512x2048 .f32) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrmI_R1RunB.lean ====
/-
  The body at a point of a MIDDLE depth block (0 < k < 95): the block's product is added to the accumulator as the
  point before left it; the result's window is not touched.
-/
import proofs.«163044_j46351287059071_1_alg».proof.Proof.FrmI_R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces when 0 < k < 95, over its contents `xs0` as the point before left them, with the run. -/
noncomputable def kernelRun1_B (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .f32) (x1 : Vec F S512x2048 .f32) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrmI_R1RunC.lean ====
/-
  The body at a point of the LAST depth block (k = 95): the block's product is added to the accumulator, and the
  accumulator plus the bias row is stored to the result's window.
-/
import proofs.«163044_j46351287059071_1_alg».proof.Proof.FrmI_R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result's and the accumulator's pieces when k = 95, over the accumulator's contents `xs0`, with the run. -/
noncomputable def kernelRun1_C (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .f32) (x1 : Vec F S512x2048 .f32) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrmI_R1Frame.lean ====
/-
  The second matrix product, point by point. At point t = 96 i + k the accumulator holds, after the body, the sum of
  the products of the depth blocks 0..k of row tile i (it is reset at k = 0); the result's window receives the
  accumulator plus the bias row at k = 95 and is idle elsewhere. Here: what the accumulator and the result's window
  hold after each point (by recursion on the point, each case's pieces read back), the region's invariant carrying the
  accumulator between points, the proof data, and the body's obligation at every point.
-/
import proofs.«163044_j46351287059071_1_alg».proof.Proof.FrmI_R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0: nothing is stored into the result's window (a placeholder nothing consults). -/
def out1_A_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S512x2048 .f32) (x2 : Vec F S1x2048 .f32) : Vec F S1024x2048 .f32 :=
  VO1_3.read (Elt F) (VO1_3.writes (Elt F) VO1_3.junk (kernelRun1_A c i arg2 harg2 arg3 harg3 arg4 harg4 arg5 harg5 arg6 harg6 hc0 hc1 x0 x1 x2).1)

/-- k = 0: the stores into the accumulator cover it. -/
theorem scover1_A_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S512x2048 .f32) (x2 : Vec F S1x2048 .f32) (y : S1024x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x2048.size (by sl_kernel_rfl) y

/-- k = 0: what the accumulator holds afterwards. -/
def sout1_A_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .f32) (x1 : Vec F S512x2048 .f32) (x2 : Vec F S1x2048 .f32) : Vec F S1024x2048 .f32 :=
  VS1_0.read (Elt F) (VS1_0.writes (Elt F) VS1_0.junk (kernelRun1_A c i arg2 harg2 arg3 harg3 arg4 harg4 arg5 harg5 arg6 harg6 hc0 hc1 x0 x1 x2).2.1)

/-- 0 < k < 95: nothing is stored into the result's window. -/
def out1_B_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S512x2048 .f32) (x2 : Vec F S1x2048 .f32) (xs0 : Vec F S1024x2048 .f32) : Vec F S1024x2048 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S512x2048 .f32) (x2 : Vec F S1x2048 .f32) (xs0 : Vec F S1024x2048 .f32) (y : S1024x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x2048.size (by sl_kernel_rfl) y

/-- 0 < k < 95: the accumulator afterwards, over what the point before left in it. -/
def sout1_B_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .f32) (x1 : Vec F S512x2048 .f32) (x2 : Vec F S1x2048 .f32) (xs0 : Vec F S1024x2048 .f32) : Vec F S1024x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- k = 95: the store into the result's window covers its block. -/
theorem cover1_C_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y

/-- k = 95: what the result's window holds afterwards. -/
def out1_C_3 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) : Vec F S1024x2048 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y

/-- k = 95: the accumulator afterwards. -/
def sout1_C_0 (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .f32) (x1 : Vec F S512x2048 .f32) (x2 : Vec F S1x2048 .f32) (xs0 : Vec F S1024x2048 .f32) : Vec F S1024x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the result's window and the accumulator hold after each point -/

/-- After the body at position `n`: (the result's window, the accumulator) — the case the point is in, run on the point's
    input blocks, the accumulator taken from what position `n - 1` left. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 96 = 0 then
      if h1 : (n + 1) % 96 = 95 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 96 = 95 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 96 = 0) (h1 : ¬t.val % 96 = 95) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 96 = 0) (h1 : ¬t.val % 96 = 95) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 96 = 0) (h1 : t.val % 96 = 95) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: at the first point what the region hands over (the accumulator at anything); afterwards the
    accumulator at what the point before left, the other scoped buffers and the generator register as they come. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block and the result's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position mod 96 says which case it is in;
    the invariant hands over the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 192 := lt_of_lt_of_eq t.isLt (show cfg1.N = 192 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 96 = 0
  · by_cases h1 : t.val % 96 = 95
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 96 = 95
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 192 := N_1; omega)

end Cert.KernelIdeal.Hand

end
-- ==== Proof.FrmI_Launch.lean ====
/-
  The whole program as a list of items: a reshape of the bias, the first matrix product, a second reshape, the second
  matrix product, and four closing stretches of tensor operations. The contents of every unscoped buffer are followed
  from the launch memory through the items (a stretch rewrites the references it writes; a product rewrites its
  result's array with what its write-backs leave and nothing else), each argument array is read back through that fold to
  its launch contents, and the launch is taken once over all the items: every weakly fair execution terminates and every
  final memory holds each unscoped buffer at the last contents of the fold.
-/
import proofs.«163044_j46351287059071_1_alg».proof.Proof.FrmI_R0Frame
import proofs.«163044_j46351287059071_1_alg».proof.Proof.FrmI_R1Frame
import proofs.«163044_j46351287059071_1_alg».proof.Proof.Gen.KernelIdeal.Launch
import proofs.«163044_j46351287059071_1_alg».proof.Proof.Gen.KernelIdeal.Regions
import proofs.«163044_j46351287059071_1_alg».proof.Proof.Gen.KernelIdeal.Skeleton
import proofs.«163044_j46351287059071_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary between two items of the program -/

/-- Core `c`'s buffers at launch. -/
abbrev W0 : Dev nD → Valuation τ sig (Elt F) := fun c b => m ((c : Dev nD), b)
/-- After the first reshape (the first product's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first product's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second reshape (the second product's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second product's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After each of the four closing stretches of tensor operations. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

theorem W8_eq (c : Dev nD) : W8 m c = StableHlo.after hostOps2_3 (StableHlo.after hostOps2_2 (StableHlo.after hostOps2_1 (StableHlo.after hostOps2 (W4 m c)))) := rfl

/-! ## What each item leaves unchanged

A stretch of tensor operations changes only the references it writes; a product changes only its windows' arrays, and of
those only the result's (an operand's array is never written back). -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h
theorem W7_of (c : Dev nD) (r : Ref sig .tc) (h : r ∉ hostOps2_2_W) : W7 m c (Proc.devRef .tc r) = W6 m c (Proc.devRef .tc r) :=
  StableHlo.after_of_writes_sub hostOps2_2 _ hostOps2_2_writes h
theorem W8_of (c : Dev nD) (r : Ref sig .tc) (h : r ∉ hostOps2_3_W) : W8 m c (Proc.devRef .tc r) = W7 m c (Proc.devRef .tc r) :=
  StableHlo.after_of_writes_sub hostOps2_3 _ hostOps2_3_writes h
/-- A reference none of the four closing stretches writes ends as the second product left it. -/
theorem W8_of_W4 (c : Dev nD) (r : Ref sig .tc) (h2 : r ∉ hostOps2_W) (h21 : r ∉ hostOps2_1_W) (h22 : r ∉ hostOps2_2_W) (h23 : r ∉ hostOps2_3_W) :
    W8 m c (Proc.devRef .tc r) = W4 m c (Proc.devRef .tc r) :=
  (W8_of m c r h23).trans <| (W7_of m c r h22).trans <| (W6_of m c r h21).trans (W5_of m c r h2)
/-- An operand's array leaves the first product as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An operand's array leaves the second product as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_in m c 0 rfl
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_in m c 1 rfl
    _ = W2 m c (Proc.devRef .tc main_arg3) := W3_of m c main_arg3 (by decide)
    _ = W1 m c (Proc.devRef .tc main_arg3) := W2_in m c 1 rfl
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W8_main_arg0 (c : Dev nD) : W8 m c (Proc.devRef .tc main_arg0) = m ((c : Thread nD τ).loc main_arg0) :=
  (W8_of_W4 m c main_arg0 (by decide) (by decide) (by decide) (by decide)).trans (W4_main_arg0 m c)
theorem W8_main_arg1 (c : Dev nD) : W8 m c (Proc.devRef .tc main_arg1) = m ((c : Thread nD τ).loc main_arg1) :=
  (W8_of_W4 m c main_arg1 (by decide) (by decide) (by decide) (by decide)).trans (W4_main_arg1 m c)
theorem W8_main_arg2 (c : Dev nD) : W8 m c (Proc.devRef .tc main_arg2) = m ((c : Thread nD τ).loc main_arg2) :=
  (W8_of_W4 m c main_arg2 (by decide) (by decide) (by decide) (by decide)).trans (W4_main_arg2 m c)
theorem W8_main_arg3 (c : Dev nD) : W8 m c (Proc.devRef .tc main_arg3) = m ((c : Thread nD τ).loc main_arg3) :=
  (W8_of_W4 m c main_arg3 (by decide) (by decide) (by decide) (by decide)).trans (W4_main_arg3 m c)
theorem W8_main_arg4 (c : Dev nD) : W8 m c (Proc.devRef .tc main_arg4) = m ((c : Thread nD τ).loc main_arg4) :=
  (W8_of_W4 m c main_arg4 (by decide) (by decide) (by decide) (by decide)).trans (W4_main_arg4 m c)

/-! ## What the two products leave, and what they are entered with -/

/-- The first product's result as the closing stretches find it: what its write-backs leave. -/
theorem W4_main_v1 (c : Dev nD) : W4 m c (Proc.devRef .tc main_v1) = (dat0 (V1 m) c).arrAt 3 cfg0.N :=
  calc W4 m c (Proc.devRef .tc main_v1)
    _ = W3 m c (Proc.devRef .tc main_v1) := W4_of_ne m c main_v1 (by decide)
    _ = W2 m c (Proc.devRef .tc main_v1) := W3_of m c main_v1 (by decide)
    _ = (dat0 (V1 m) c).arrAt 3 cfg0.N := W2_arr m c 3
/-- The second product's result as the closing stretches find it. -/
theorem W4_main_v3 (c : Dev nD) : W4 m c (Proc.devRef .tc main_v3) = (dat1 (V3 m) c).arrAt 3 cfg1.N :=
  W4_arr m c 3

theorem V1_main_arg0 (c : Dev nD) : V1 m c main_arg0 = m ((c : Thread nD τ).loc main_arg0) :=
  (W1_of m c main_arg0 (by decide)).trans rfl
theorem V1_main_arg3 (c : Dev nD) : V1 m c main_arg3 = m ((c : Thread nD τ).loc main_arg3) :=
  (W1_of m c main_arg3 (by decide)).trans rfl
theorem V3_main_arg2 (c : Dev nD) : V3 m c main_arg2 = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem V3_main_arg3 (c : Dev nD) : V3 m c main_arg3 = m ((c : Thread nD τ).loc main_arg3) :=
  calc W3 m c (Proc.devRef .tc main_arg3)
    _ = W2 m c (Proc.devRef .tc main_arg3) := W3_of m c main_arg3 (by decide)
    _ = W1 m c (Proc.devRef .tc main_arg3) := W2_in m c 1 rfl
    _ = W0 m c (Proc.devRef .tc main_arg3) := W1_of m c main_arg3 (by decide)
    _ = m ((c : Thread nD τ).loc main_arg3) := rfl

/-- The bias row as the first product finds it: the bias argument read in row-major order at one row. -/
theorem V1_main_v0 (c : Dev nD) : V1 m c main_v0
    = fun i => (rfl : main_arg4.ty.elt = main_v0.ty.elt) ▸ shapeCast main_v0.ty.shape (m ((c : Thread nD τ).loc main_arg4)) shapeCasts_S2048_S1x2048 i := by
  show StableHlo.after hostOps0 (W0 m c) (Proc.devRef .tc main_v0) = _
  after_results
/-- The bias row as the second product finds it. -/
theorem V3_main_v2 (c : Dev nD) : V3 m c main_v2
    = fun i => (rfl : main_arg4.ty.elt = main_v2.ty.elt) ▸ shapeCast main_v2.ty.shape (m ((c : Thread nD τ).loc main_arg4)) shapeCasts_S2048_S1x2048 i := by
  show StableHlo.after hostOps1 (W2 m c) (Proc.devRef .tc main_v2) = _
  after_results
  rw [W2_of_ne m c main_arg4 (by decide), W1_of m c main_arg4 (by decide)]

/-! ## The proof data family and the thread state -/

/-- Each product's proof data at its own entry contents: one case per product. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the random-number register at some state and the core owing nothing. -/
abbrev R (c : Dev nD) : sProp 𝕄 := iprop((∃ r, prngReg c r) ∗ ∃ W, owes (c : Thread nD τ) (0 : CellTallies nD τ sig Unit) W)
/-- A stretch of tensor operations as a segment: over the unscoped references from the contents `W`, `R` riding along;
    it ends with those references at what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the random-number
    register at some state. -/
abbrev Tₙ (c : Dev nD) : sProp 𝕄 := iprop(StableHlo.held (c : Thread nD τ) (Pipeline.ucRefs τ sig) (W8 m c) ∗ ∃ r, prngReg c r)

/-! ## The two products as segments -/

-- the library's lemmas are stated over a pinned configuration, which must unfold to the printed one
set_option backward.isDefEq.respectTransparency.types false in
/-- Product 0 over the thread state: entered from every unscoped buffer at `W1`, left at `W2`. Its arrays
    are split out of the unscoped buffers and put back at the exit contents; the random-number register and the scoped
    buffers no window stages go into the product's invariant at its first point and come back from it at its last;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration, which must unfold to the printed one
set_option backward.isDefEq.respectTransparency.types false in
/-- Product 1 over the thread state: entered from every unscoped buffer at `W3`, left at `W4`. Its arrays
    are split out of the unscoped buffers and put back at the exit contents; the random-number register and the scoped
    buffers no window stages go into the product's invariant at its first point and come back from it at its last;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 8 items in order: a segment per stretch of tensor operations from its boundary's contents, a region
    per product. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]
/-- The program is the run of the segments: it is the chain of its items, and so is the segments' run. -/
theorem main_run (c : Dev nD) : main (F := F) c = Pipeline.Seg.run (segs m) :=
  (main_chain c).trans (by rw [Pipeline.Seg.run_eq_chain]; rfl)

/-- The last stretch's exit is the last thread state beside the core owing nothing. -/
theorem last_state (c : Dev nD) : (iprop(StableHlo.held (c : Thread nD τ) (Pipeline.ucRefs τ sig) (W8 m c) ∗ R c) : sProp 𝕄)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's conclusion is stated over pinned configurations, which must unfold to the printed ones
set_option backward.isDefEq.respectTransparency.types false in
/-- THE RUN. From any memory with zero counters every weakly fair execution of the program terminates, nothing
    faulting, and in every final state each unscoped buffer holds what the fold through the program says (`W8`). -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: every argument array ends as launched, each read off the last boundary's contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩) (run_all m ρ)

end Cert.KernelIdeal.Hand

end
-- ==== Proof.PayloadAt.lean ====
import proofs.«163044_j46351287059071_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The kernel bodies' stored values read at an index, at the ideal values

Each value a kernel function stores — the zero splat, one reduction step of the blocked matrix product, the final
addition of the bias row — read at an output index `(p, q)` as an expression in the extended reals over the
operands read at an index. -/

noncomputable section

namespace Cert.KernelIdeal.PayloadAt

open Cert.KernelIdeal Cert.KernelIdeal.Gen Idealize.ShloMosaic Idealize.ShloMosaic.ValueIdx

/-! ## Kernel function 0: a [512, 512] block times a [512, 2048] block into a [512, 2048] accumulator -/

/-- The zero splat the first reduction step stores: the extended real `0` at every index. -/
theorem pay1_0 (j : S512x2048.Idx) : (k0_pay1 (F := Ideal)) j = 0 := by
  unfold Gen.k0_pay1
  rw [shapeCast_self]
  exact Ideal.ofBits_zero_f32

/-- The left operand's index at output index `i` and contraction index `q`: its row is the output's row. -/
theorem lhs_k0_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
/-- Its column is the contraction coordinate. -/
theorem lhs_k0_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
/-- The right operand's row is the contraction coordinate. -/
theorem rhs_k0_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
/-- Its column is the output's column. -/
theorem rhs_k0_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The matrix product into the zero splat, read at `(p, q)`: the sum over the contraction coordinate `j` of
    the left operand at `(p, j)` times the right operand at `(j, q)`. -/
theorem matmul_k0_apply (a : FVec Ideal S512x512 .bf16) (b : FVec Ideal S512x2048 .bf16) (p : Fin 512) (q : Fin 2048) :
    matmul dot_S512x512_S512x2048_S512x2048_1_0_0_1_n_n none a b (constant (F := Ideal) S512x2048 .f32 0x00000000#32) (ix2 p q)
      = ∑ j : Fin 512, a (ix2 p j) * b (ix2 j q) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k := funext fun ax => Fin.ext (by
    match ax with
    | ⟨0, _⟩ => exact lhs_k0_0 _ _
    | ⟨1, _⟩ => exact (lhs_k0_1 _ _).trans hk)
  have er : dot_S512x512_S512x2048_S512x2048_1_0_0_1_n_n.rhsIdx (ix2 p q) ((contrEquiv1 dot_S512x512_S512x2048_S512x2048_1_0_0_1_n_n 512 rfl rfl).symm k) = ix2 k q := funext fun ax => Fin.ext (by
    match ax with
    | ⟨0, _⟩ => exact (rhs_k0_0 _ _).trans hk
    | ⟨1, _⟩ => exact rhs_k0_1 _ _)
  rw [el, er]

/-- One reduction step: the accumulator plus the product of the two blocks (the narrowing of the operands is the
    identity on extended reals). -/
theorem pay2_0 (x : Vec Ideal S512x512 .f32) (w : Vec Ideal S512x2048 .f32) (acc : Vec Ideal S512x2048 .f32) (p : Fin 512) (q : Fin 2048) :
    k0_pay2 (F := Ideal) x w acc (ix2 p q) = acc (ix2 p q) + ∑ j : Fin 512, x (ix2 p j) * w (ix2 j q) := by
  unfold Gen.k0_pay2
  rw [shapeCast_self, addf_apply, matmul_k0_apply]
  rfl

/-- The last step: the accumulator plus the bias row, the same for every row `p`. -/
theorem pay3_0 (acc : Vec Ideal S512x2048 .f32) (b : Vec Ideal S1x2048 .f32) (p : Fin 512) (q : Fin 2048) :
    k0_pay3 (F := Ideal) acc b (ix2 p q) = acc (ix2 p q) + b (ix2 0 q) := by
  unfold Gen.k0_pay3
  rw [addf_apply, broadcastTo_1b_ab_apply, shapeCast_self]

/-! ## Kernel function 1: a [1024, 512] block times a [512, 2048] block into a [1024, 2048] accumulator -/

/-- The zero splat the first reduction step stores: the extended real `0` at every index. -/
theorem pay1_1 (j : S1024x2048.Idx) : (k1_pay1 (F := Ideal)) j = 0 := by
  unfold Gen.k1_pay1
  rw [shapeCast_self]
  exact Ideal.ofBits_zero_f32

/-- The left operand's index at output index `i` and contraction index `q`: its row is the output's row. -/
theorem lhs_k1_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
/-- Its column is the contraction coordinate. -/
theorem lhs_k1_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
/-- The right operand's row is the contraction coordinate. -/
theorem rhs_k1_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
/-- Its column is the output's column. -/
theorem rhs_k1_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The matrix product into the zero splat, read at `(p, q)`: the sum over the contraction coordinate `j` of
    the left operand at `(p, j)` times the right operand at `(j, q)`. -/
theorem matmul_k1_apply (a : FVec Ideal S1024x512 .bf16) (b : FVec Ideal S512x2048 .bf16) (p : Fin 1024) (q : Fin 2048) :
    matmul dot_S1024x512_S512x2048_S1024x2048_1_0_0_1_n_n none a b (constant (F := Ideal) S1024x2048 .f32 0x00000000#32) (ix2 p q)
      = ∑ j : Fin 512, a (ix2 p j) * b (ix2 j q) := by
  simp only [matmul]
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun ax => Fin.ext (by
    match ax with
    | ⟨0, _⟩ => exact lhs_k1_0 _ _
    | ⟨1, _⟩ => exact (lhs_k1_1 _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun ax => Fin.ext (by
    match ax with
    | ⟨0, _⟩ => exact (rhs_k1_0 _ _).trans hk
    | ⟨1, _⟩ => exact rhs_k1_1 _ _)
  rw [el, er]

/-- One reduction step: the accumulator plus the product of the two blocks (the narrowing of the operands is the
    identity on extended reals). -/
theorem pay2_1 (x : Vec Ideal S1024x512 .f32) (w : Vec Ideal S512x2048 .f32) (acc : Vec Ideal S1024x2048 .f32) (p : Fin 1024) (q : Fin 2048) :
    k1_pay2 (F := Ideal) x w acc (ix2 p q) = acc (ix2 p q) + ∑ j : Fin 512, x (ix2 p j) * w (ix2 j q) := by
  unfold Gen.k1_pay2
  rw [shapeCast_self, addf_apply, matmul_k1_apply]
  rfl

/-- The last step: the accumulator plus the bias row, the same for every row `p`. -/
theorem pay3_1 (acc : Vec Ideal S1024x2048 .f32) (b : Vec Ideal S1x2048 .f32) (p : Fin 1024) (q : Fin 2048) :
    k1_pay3 (F := Ideal) acc b (ix2 p q) = acc (ix2 p q) + b (ix2 0 q) := by
  unfold Gen.k1_pay3
  rw [addf_apply, broadcastTo_1b_ab_apply, shapeCast_self]

end Cert.KernelIdeal.PayloadAt

end
-- ==== Proof.BlockSum.lean ====
import Mathlib.Algebra.BigOperators.Group.Finset.Basic
import Mathlib.Algebra.BigOperators.Fin
import Mathlib.Data.Fintype.BigOperators

/-!
# Sums over 96 consecutive blocks of 512 indices

A sum over `k < 49152` can be taken block by block: first over the 512 indices of a block
`kb` (the index is `kb * 512 + j`), then over the 96 blocks.  Only commutativity and
associativity of `+` are used, so everything is stated for an additive commutative monoid.
-/

noncomputable section

namespace Cert.BlockSum

open Finset

variable {α : Type*} [AddCommMonoid α]

/-- partial block sums: what the accumulator holds after blocks 0..n -/
def blockAcc (f : ℕ → α) (n : ℕ) : α :=
  ∑ kb ∈ Finset.range (n + 1), ∑ j : Fin 512, f (kb * 512 + j.val)

/-- The sum over the first `n` blocks is the sum over the first `n * 512` indices. -/
theorem sum_blocks_eq_sum_range (f : ℕ → α) (n : ℕ) :
    ∑ kb ∈ Finset.range n, ∑ j : Fin 512, f (kb * 512 + j.val)
      = ∑ k ∈ Finset.range (n * 512), f k := by
  induction n with
  | zero => simp
  | succ n ih =>
    rw [Finset.sum_range_succ, ih, Nat.succ_mul, Finset.sum_range_add,
      Fin.sum_univ_eq_sum_range (fun j => f (n * 512 + j)) 512]

theorem blockAcc_zero (f : ℕ → α) : blockAcc f 0 = ∑ j : Fin 512, f j.val := by
  unfold blockAcc
  rw [Finset.sum_range_one]
  refine Finset.sum_congr rfl fun j _ => ?_
  rw [Nat.zero_mul, Nat.zero_add]

theorem blockAcc_succ (f : ℕ → α) (n : ℕ) :
    blockAcc f (n + 1) = blockAcc f n + ∑ j : Fin 512, f ((n + 1) * 512 + j.val) := by
  unfold blockAcc
  rw [Finset.sum_range_succ]

theorem blockAcc_last (f : ℕ → α) : blockAcc f 95 = ∑ k : Fin 49152, f k.val := by
  unfold blockAcc
  rw [sum_blocks_eq_sum_range f (95 + 1), Fin.sum_univ_eq_sum_range f 49152]

end Cert.BlockSum

end
-- ==== Proof.Encode.lean ====
/-
  The specification of the two matrix products: entry (r, q) of (images · weights) plus the bias row, as one function of
  the three arrays over the extended reals. The kernel reaches it by 96 depth blocks of 512 into an accumulator; the
  reference by one sum over the 49152 columns.
-/
import proofs.«163044_j46351287059071_1_alg».proof.KernelIdeal
import Idealize.ShloMosaic.PureOps.Ideal
import Idealize.ShloMosaic.Lib.ValueIdx

noncomputable section

namespace Cert.KernelIdeal.Encode

open Cert.KernelIdeal Idealize.ShloMosaic Idealize.ShloMosaic.ValueIdx

/-- The support images (1024 rows) against the weights, plus the bias held as a 1 x 2048 row. -/
def encode0 (X : (⟨S1024x49152, .f32⟩ : BufTy).Contents (Elt Ideal)) (Wt : (⟨S49152x2048, .f32⟩ : BufTy).Contents (Elt Ideal))
    (Bv : (⟨S1x2048, .f32⟩ : BufTy).Contents (Elt Ideal)) : (⟨S1024x2048, .f32⟩ : BufTy).Contents (Elt Ideal) :=
  fun i => (∑ n : Fin 49152, X (ix2 (i 0) n) * Wt (ix2 n (i 1))) + Bv (ix2 0 (i 1))

/-- The query images (2048 rows) against the weights, plus the bias row. -/
def encode1 (X : (⟨S2048x49152, .f32⟩ : BufTy).Contents (Elt Ideal)) (Wt : (⟨S49152x2048, .f32⟩ : BufTy).Contents (Elt Ideal))
    (Bv : (⟨S1x2048, .f32⟩ : BufTy).Contents (Elt Ideal)) : (⟨S2048x2048, .f32⟩ : BufTy).Contents (Elt Ideal) :=
  fun i => (∑ n : Fin 49152, X (ix2 (i 0) n) * Wt (ix2 n (i 1))) + Bv (ix2 0 (i 1))

end Cert.KernelIdeal.Encode

end
-- ==== Proof.ValueR0.lean ====
/-
  The first matrix product's result array after its region, at the extended reals. At point t = 96 i + k the
  accumulator holds, after the body, the sum of the products of the depth blocks 0..k of row tile i: the partial
  block sum of the sequence n ↦ x[512 i + p, n] * w[n, q]. At k = 95 the result's window receives that sum, now over
  the whole depth, plus the bias row, and is written back to rows 512 i .. 512 i + 511; the two write-backs cover
  the array, which therefore ends holding (images · weights) + bias at every index.
-/
import proofs.«163044_j46351287059071_1_alg».proof.Proof.FrmI_R0Frame
import proofs.«163044_j46351287059071_1_alg».proof.Proof.PayloadAt
import proofs.«163044_j46351287059071_1_alg».proof.Proof.BlockSum
import proofs.«163044_j46351287059071_1_alg».proof.Proof.Encode
import Idealize.ShloMosaic.Lib.Pipeline.Value
import Idealize.ShloMosaic.Lib.ValueIdx
import Idealize.ShloMosaic.Lib.Tactic

set_option maxRecDepth 16384

noncomputable section

namespace Cert.KernelIdeal.ValueR0

open Cert.KernelIdeal Cert.KernelIdeal.Gen Cert.KernelIdeal.Hand Cert.KernelIdeal.PayloadAt Cert.BlockSum Cert.KernelIdeal.Encode
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-! ## What each case's stores leave, as the named values -/

/-- First depth block: the accumulator is reset to zero, then the block's product is added. -/
theorem acc_A (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (x0 : Vec Ideal S512x512 .f32) (x1 : Vec Ideal S512x2048 .f32) (x2 : Vec Ideal S1x2048 .f32) :
    sout0_A_0 (F := Ideal) c i arg2 harg2 arg3 harg3 arg4 harg4 arg5 harg5 arg6 harg6 hc0 hc1 x0 x1 x2 = k0_pay2 (F := Ideal) x0 x1 (k0_pay1 (F := Ideal)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x2048) hz, View.readCov_unit_zero (S := S512x2048) _ hz]
  simp only [View.readAt_eq_ld, harg2.read_unread, harg3.read_unread, View.ld_unit_zero (S := S512x512) hz,
    View.ld_unit_zero (S := S512x2048) hz]

/-- A middle depth block: the block's product is added to what the accumulator held. -/
theorem acc_B (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i) (x0 : Vec Ideal S512x512 .f32) (x1 : Vec Ideal S512x2048 .f32) (x2 : Vec Ideal S1x2048 .f32) (xs0 : Vec Ideal S512x2048 .f32) :
    sout0_B_0 (F := Ideal) c i arg2 harg2 arg3 harg3 arg4 harg4 arg5 harg5 arg6 harg6 hc0 hc1 x0 x1 x2 xs0 = k0_pay2 (F := Ideal) x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S512x2048) hz]
  simp only [View.readAt_eq_ld, harg2.read_unread, harg3.read_unread, harg6.read_unread, View.ld_unit_zero (S := S512x512) hz,
    View.ld_unit_zero (S := S512x2048) hz]

/-- The last depth block: the accumulator as in the middle ones, -/
theorem acc_C (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec Ideal S512x512 .f32) (x1 : Vec Ideal S512x2048 .f32) (x2 : Vec Ideal S1x2048 .f32) (xs0 : Vec Ideal S512x2048 .f32) :
    sout0_C_0 (F := Ideal) c i arg2 harg2 arg3 harg3 arg4 harg4 arg5 harg5 arg6 harg6 hc0 hc1 x0 x1 x2 xs0 = k0_pay2 (F := Ideal) x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S512x2048) hz]
  simp only [View.readAt_eq_ld, harg2.read_unread, harg3.read_unread, harg6.read_unread, View.ld_unit_zero (S := S512x512) hz,
    View.ld_unit_zero (S := S512x2048) hz]

/-- and the result's window receives the accumulator plus the bias row. -/
theorem out_C (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (x0 : Vec Ideal S512x512 .f32) (x1 : Vec Ideal S512x2048 .f32) (x2 : Vec Ideal S1x2048 .f32) (xs0 : Vec Ideal S512x2048 .f32) :
    out0_C_3 (F := Ideal) c i arg2 harg2 arg3 harg3 arg4 harg4 arg5 harg5 arg6 harg6 hc0 hc1 x0 x1 x2 xs0 = k0_pay3 (F := Ideal) (k0_pay2 (F := Ideal) x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S512x2048) hz, View.readCov_unit_zero (S := S512x2048) _ hz]
  simp only [View.readAt_eq_ld, harg2.read_unread, harg3.read_unread, harg4.read_unread, harg6.read_unread,
    View.ld_unit_zero (S := S512x512) hz, View.ld_unit_zero (S := S512x2048) hz, View.ld_unit_zero (S := S1x2048) hz]

/-! ## The grid: point t = 96 * i + k -/

theorem idx0 : ∀ t : Fin grid0.N, win0_0.index t 0 = t.val / 96 ∧ win0_0.index t 1 = t.val % 96 := by decide +kernel
theorem idx1 : ∀ t : Fin grid0.N, win0_1.index t 0 = t.val % 96 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val / 96 ∧ win0_3.index t 1 = 0 := by decide +kernel

variable (V : (c : Dev nD) → (b : Ref sig .tc) → Buf (Elt Ideal) ((c : Thread nD τ).loc b)) (c : Dev nD)

/-- The three input arrays as the region finds them, at their literal types. -/
abbrev XA : (⟨S1024x49152, .f32⟩ : BufTy).Contents (Elt Ideal) := V c main_arg0
abbrev WA : (⟨S49152x2048, .f32⟩ : BufTy).Contents (Elt Ideal) := V c main_arg3
abbrev BA : (⟨S1x2048, .f32⟩ : BufTy).Contents (Elt Ideal) := V c main_v0

/-- The windows' blocks at point t, at their literal types. -/
abbrev xblk (t : Fin cfg0.N) : Vec Ideal S512x512 .f32 := iblk0 V c 0 t
abbrev wblk (t : Fin cfg0.N) : Vec Ideal S512x2048 .f32 := iblk0 V c 1 t
abbrev bblk (t : Fin cfg0.N) : Vec Ideal S1x2048 .f32 := iblk0 V c 2 t

/-- Row p of row tile t / 96. -/
def rowIx (t : Fin cfg0.N) (p : Fin 512) : Fin 1024 :=
  ⟨512 * (t.val / 96) + p.val, by have h := t.isLt; have hN : cfg0.N = 192 := N_0; omega⟩
/-- Column j of depth block t % 96. -/
def depIx (t : Fin cfg0.N) (j : Fin 512) : Fin 49152 :=
  ⟨(t.val % 96) * 512 + j.val, by omega⟩

theorem xblk_apply (t : Fin cfg0.N) (p j : Fin 512) :
    xblk V c t (ix2 p j) = XA V c (ix2 (rowIx t p) (depIx t j)) := by
  show V c main_arg0 (((cfg0.win 0).blk t).view.emb (ix2 p j)) = V c main_arg0 _
  refine congrArg (V c main_arg0) (funext fun a => Fin.ext ?_)
  match a with
  | ⟨0, _⟩ =>
    show win0_0.index t 0 * 512 + 1 * p.val = 512 * (t.val / 96) + p.val
    rw [(idx0 t).1]; omega
  | ⟨1, _⟩ =>
    show win0_0.index t 1 * 512 + 1 * j.val = (t.val % 96) * 512 + j.val
    rw [(idx0 t).2]; omega

theorem wblk_apply (t : Fin cfg0.N) (j : Fin 512) (q : Fin 2048) :
    wblk V c t (ix2 j q) = WA V c (ix2 (depIx t j) q) := by
  show V c main_arg3 (((cfg0.win 1).blk t).view.emb (ix2 j q)) = V c main_arg3 _
  refine congrArg (V c main_arg3) (funext fun a => Fin.ext ?_)
  match a with
  | ⟨0, _⟩ =>
    show win0_1.index t 0 * 512 + 1 * j.val = (t.val % 96) * 512 + j.val
    rw [(idx1 t).1]; omega
  | ⟨1, _⟩ =>
    show win0_1.index t 1 * 2048 + 1 * q.val = q.val
    rw [(idx1 t).2]; omega

theorem bblk_apply (t : Fin cfg0.N) (q : Fin 2048) :
    bblk V c t (ix2 0 q) = BA V c (ix2 0 q) := by
  show V c main_v0 (((cfg0.win 2).blk t).view.emb (ix2 0 q)) = V c main_v0 _
  refine congrArg (V c main_v0) (funext fun a => Fin.ext ?_)
  match a with
  | ⟨0, _⟩ =>
    show win0_2.index t 0 * 1 + 1 * 0 = 0
    rw [(idx2 t).1]
  | ⟨1, _⟩ =>
    show win0_2.index t 1 * 2048 + 1 * q.val = q.val
    rw [(idx2 t).2]; omega

/-! ## The accumulator after each point: the partial block sum of its row tile -/

/-- The products along the depth, as a sequence: term n of row r and column q (zero past the depth). -/
def term (r : Fin 1024) (q : Fin 2048) : ℕ → EReal := fun n =>
  if h : n < 49152 then XA V c (ix2 r ⟨n, h⟩) * WA V c (ix2 ⟨n, h⟩ q) else 0

/-- The product of point t's two blocks at (p, q) is the depth block t % 96 of the sequence. -/
theorem blockTerm (t : Fin cfg0.N) (p : Fin 512) (q : Fin 2048) :
    (∑ j : Fin 512, xblk V c t (ix2 p j) * wblk V c t (ix2 j q))
      = ∑ j : Fin 512, term V c (rowIx t p) q ((t.val % 96) * 512 + j.val) := by
  refine Finset.sum_congr rfl fun j _ => ?_
  rw [xblk_apply, wblk_apply]
  unfold term
  rw [dif_pos (show (t.val % 96) * 512 + j.val < 49152 by omega)]
  rfl

theorem acc_inv : ∀ (n : ℕ) (hn : n < cfg0.N) (p : Fin 512) (q : Fin 2048),
    (outsAt0 V c n hn).2 (ix2 p q) = blockAcc (term V c (rowIx ⟨n, hn⟩ p) q) (n % 96) := by
  intro n
  induction n using Nat.strong_induction_on with
  | _ n ih =>
    intro hn p q
    have hN : cfg0.N = 192 := N_0
    by_cases h0 : n % 96 = 0
    · have h1 : ¬n % 96 = 95 := by omega
      have e : outsAt0 V c n hn = _ := outsAt0_A V c ⟨n, hn⟩ h0 h1
      rw [e]
      dsimp only
      refine (congrFun (acc_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (xblk V c ⟨n, hn⟩) (wblk V c ⟨n, hn⟩) (bblk V c ⟨n, hn⟩)) (ix2 p q)).trans ?_
      refine (pay2_0 (xblk V c ⟨n, hn⟩) (wblk V c ⟨n, hn⟩) (k0_pay1 (F := Ideal)) p q).trans ?_
      rw [pay1_0, zero_add, blockTerm, h0, blockAcc_zero]
      refine Finset.sum_congr rfl fun j _ => ?_
      rw [Nat.zero_mul, Nat.zero_add]
    · have hpos : n ≠ 0 := by omega
      have hm : n - 1 < n := by omega
      have hn' : n - 1 < cfg0.N := Nat.lt_of_le_of_lt (Nat.sub_le _ _) hn
      have hprev := ih (n - 1) hm hn' p q
      have hrow : rowIx ⟨n - 1, hn'⟩ p = rowIx ⟨n, hn⟩ p := Fin.ext (by unfold rowIx; dsimp only; omega)
      have hk : n % 96 = (n - 1) % 96 + 1 := by omega
      have key : blockAcc (term V c (rowIx ⟨n, hn⟩ p) q) (n % 96)
          = blockAcc (term V c (rowIx ⟨n, hn⟩ p) q) ((n - 1) % 96)
            + ∑ j : Fin 512, term V c (rowIx ⟨n, hn⟩ p) q ((n % 96) * 512 + j.val) := by
        rw [hk]; exact blockAcc_succ _ _
      by_cases h1 : n % 96 = 95
      · have e : outsAt0 V c n hn = _ := outsAt0_C V c ⟨n, hn⟩ h0 h1
        rw [e]
        dsimp only
        refine (congrFun (acc_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (xblk V c ⟨n, hn⟩) (wblk V c ⟨n, hn⟩) (bblk V c ⟨n, hn⟩) (outsAt0 V c (n - 1) hn').2) (ix2 p q)).trans ?_
        refine (pay2_0 (xblk V c ⟨n, hn⟩) (wblk V c ⟨n, hn⟩) (outsAt0 V c (n - 1) hn').2 p q).trans ?_
        rw [hprev, hrow, blockTerm]
        exact key.symm
      · have e : outsAt0 V c n hn = _ := outsAt0_B V c ⟨n, hn⟩ h0 h1
        rw [e]
        dsimp only
        refine (congrFun (acc_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (xblk V c ⟨n, hn⟩) (wblk V c ⟨n, hn⟩) (bblk V c ⟨n, hn⟩) (outsAt0 V c (n - 1) hn').2) (ix2 p q)).trans ?_
        refine (pay2_0 (xblk V c ⟨n, hn⟩) (wblk V c ⟨n, hn⟩) (outsAt0 V c (n - 1) hn').2 p q).trans ?_
        rw [hprev, hrow, blockTerm]
        exact key.symm

/-! ## The result's window at the last depth block, and the array after the region -/

/-- At the last depth block the result's window receives the accumulator's new contents plus the bias row. -/
theorem res_C (t : Fin cfg0.N) (h1 : t.val % 96 = 95) (p : Fin 512) (q : Fin 2048) :
    (outsAt0 V c t.val t.isLt).1 (ix2 p q) = (outsAt0 V c t.val t.isLt).2 (ix2 p q) + bblk V c t (ix2 0 q) := by
  have h0 : ¬t.val % 96 = 0 := by omega
  rw [outsAt0_C V c t h0 h1]
  dsimp only
  refine (congrFun (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk V c t) (wblk V c t) (bblk V c t) (outsAt0 V c (t.val - 1) (Nat.lt_of_le_of_lt (Nat.sub_le _ _) t.isLt)).2) (ix2 p q)).trans ?_
  refine (pay3_0 _ (bblk V c t) p q).trans ?_
  exact congrArg (· + bblk V c t (ix2 0 q)) (congrFun (acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk V c t) (wblk V c t) (bblk V c t) (outsAt0 V c (t.val - 1) (Nat.lt_of_le_of_lt (Nat.sub_le _ _) t.isLt)).2) (ix2 p q)).symm

/-- The sequence's sum over the whole depth is the specification's sum. -/
theorem sum_term (r : Fin 1024) (q : Fin 2048) :
    (∑ n : Fin 49152, term V c r q n.val) = ∑ n : Fin 49152, XA V c (ix2 r n) * WA V c (ix2 n q) :=
  Finset.sum_congr rfl fun n _ => by unfold term; rw [dif_pos n.isLt]

/-- So at the last depth block the window holds the specification at the rows of its tile. -/
theorem res_eq (t : Fin cfg0.N) (h1 : t.val % 96 = 95) (p : Fin 512) (q : Fin 2048) :
    (outsAt0 V c t.val t.isLt).1 (ix2 p q) = encode0 (XA V c) (WA V c) (BA V c) (ix2 (rowIx t p) q) := by
  rw [res_C V c t h1 p q, acc_inv V c t.val t.isLt p q, h1, blockAcc_last, sum_term, bblk_apply]
  rfl

/-- What the write-back at a point of the last depth block writes is that point's block of the specification. -/
theorem flushed_eq (t : Fin cfg0.N) (hf : (cfg0.win 3).flush t = true) :
    (dat0 (F := Ideal) V c).flushed 3 t
      = ((cfg0.win 3).blk t).view.read (Elt Ideal) (encode0 (XA V c) (WA V c) (BA V c)) := by
  have h1 : t.val % 96 = 95 := (flush0_3 t).mp hf
  funext y
  have hp : (y 0).val < 512 := (y 0).isLt
  have hq : (y 1).val < 2048 := (y 1).isLt
  have ey : (cfg0.win 3).xinj (grid0.coords t) y = ix2 (⟨(y 0).val, hp⟩ : Fin 512) (⟨(y 1).val, hq⟩ : Fin 2048) :=
    funext fun a => by match a with | ⟨0, _⟩ => rfl | ⟨1, _⟩ => rfl
  have ee : ((cfg0.win 3).blk t).view.emb y = ix2 (rowIx t ⟨(y 0).val, hp⟩) (⟨(y 1).val, hq⟩ : Fin 2048) :=
    funext fun a => Fin.ext (by
      match a with
      | ⟨0, _⟩ =>
        show win0_3.index t 0 * 512 + 1 * (y 0).val = 512 * (t.val / 96) + (y 0).val
        rw [(idx3 t).1]; omega
      | ⟨1, _⟩ =>
        show win0_3.index t 1 * 2048 + 1 * (y 1).val = (y 1).val
        rw [(idx3 t).2]; omega)
  rw [View.read_apply]
  show (cfg0.win 3).cut (grid0.coords t) ((dat0 V c).after 3 t) y = _
  rw [after0_3]
  show (outsAt0 V c t.val t.isLt).1 ((cfg0.win 3).xinj (grid0.coords t) y) = _
  refine (congrArg (outsAt0 V c t.val t.isLt).1 ey).trans ?_
  refine Eq.trans ?_ (congrArg (encode0 (XA V c) (WA V c) (BA V c)) ee).symm
  exact res_eq V c t h1 _ _

/-- Row r of the result is written back at the last depth block of its row tile. -/
theorem cover (i : S1024x2048.Idx) :
    ∃ t : Fin cfg0.N, (cfg0.win 3).flush t = true ∧ i ∈ ((cfg0.win 3).blk t).view.set := by
  have hN : cfg0.N = 192 := N_0
  have h0 : (i 0).val < 1024 := (i 0).isLt
  have h1 : (i 1).val < 2048 := (i 1).isLt
  have ht : 96 * ((i 0).val / 512) + 95 < cfg0.N := by omega
  refine ⟨⟨96 * ((i 0).val / 512) + 95, ht⟩, (flush0_3 _).mpr (by dsimp only; omega), ?_⟩
  show i ∈ ((View.whole main_v1).slice (win0_3.rect ⟨96 * ((i 0).val / 512) + 95, ht⟩)).set
  rw [View.set_slice_whole, Rect.mem_set_unit]
  intro a
  match a with
  | ⟨0, _⟩ =>
    show win0_3.index ⟨96 * ((i 0).val / 512) + 95, ht⟩ 0 * 512 ≤ (i 0).val
      ∧ (i 0).val < win0_3.index ⟨96 * ((i 0).val / 512) + 95, ht⟩ 0 * 512 + 512
    rw [(idx3 _).1]; dsimp only; omega
  | ⟨1, _⟩ =>
    show win0_3.index ⟨96 * ((i 0).val / 512) + 95, ht⟩ 1 * 2048 ≤ (i 1).val
      ∧ (i 1).val < win0_3.index ⟨96 * ((i 0).val / 512) + 95, ht⟩ 1 * 2048 + 2048
    rw [(idx3 _).2]; omega

/-- After the region the result array holds the specification: (images · weights) plus the bias, at every index. -/
theorem final0 : (dat0 (F := Ideal) V c).arrAt 3 cfg0.N = encode0 (V c main_arg0) (V c main_arg3) (V c main_v0) :=
  (dat0 (F := Ideal) V c).arrAt_eq_of_cover 3 (encode0 (XA V c) (WA V c) (BA V c)) (flushed_eq V c) (cover)

end Cert.KernelIdeal.ValueR0

end
-- ==== Proof.ValueR1.lean ====
/-
  The second matrix product's result array after its region, at the extended reals. At point t = 96 i + k the
  accumulator holds, after the body, the sum of the products of the depth blocks 0..k of row tile i (1024 rows):
  the partial block sum of the sequence n ↦ x[1024 i + p, n] * w[n, q]. At k = 95 the result's window receives that
  sum, now over the whole depth, plus the bias row, and is written back to rows 1024 i .. 1024 i + 1023; the two
  write-backs cover the array, which therefore ends holding (images · weights) + bias at every index.
-/
import proofs.«163044_j46351287059071_1_alg».proof.Proof.FrmI_R1Frame
import proofs.«163044_j46351287059071_1_alg».proof.Proof.PayloadAt
import proofs.«163044_j46351287059071_1_alg».proof.Proof.BlockSum
import proofs.«163044_j46351287059071_1_alg».proof.Proof.Encode
import Idealize.ShloMosaic.Lib.Pipeline.Value
import Idealize.ShloMosaic.Lib.ValueIdx
import Idealize.ShloMosaic.Lib.Tactic

set_option maxRecDepth 16384

noncomputable section

namespace Cert.KernelIdeal.ValueR1

open Cert.KernelIdeal Cert.KernelIdeal.Gen Cert.KernelIdeal.Hand Cert.KernelIdeal.PayloadAt Cert.BlockSum Cert.KernelIdeal.Encode
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-! ## What each case's stores leave, as the named values -/

/-- First depth block: the accumulator is reset to zero, then the block's product is added. -/
theorem acc_A (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec Ideal S1024x512 .f32) (x1 : Vec Ideal S512x2048 .f32) (x2 : Vec Ideal S1x2048 .f32) :
    sout1_A_0 (F := Ideal) c i arg2 harg2 arg3 harg3 arg4 harg4 arg5 harg5 arg6 harg6 hc0 hc1 x0 x1 x2 = k1_pay2 (F := Ideal) x0 x1 (k1_pay1 (F := Ideal)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x2048) hz, View.readCov_unit_zero (S := S1024x2048) _ hz]
  simp only [View.readAt_eq_ld, harg2.read_unread, harg3.read_unread, View.ld_unit_zero (S := S1024x512) hz, View.ld_unit_zero (S := S512x2048) hz, View.ld_unit_zero (S := S1024x2048) hz]

/-- A middle depth block: the block's product is added to what the accumulator held. -/
theorem acc_B (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec Ideal S1024x512 .f32) (x1 : Vec Ideal S512x2048 .f32) (x2 : Vec Ideal S1x2048 .f32) (xs0 : Vec Ideal S1024x2048 .f32) :
    sout1_B_0 (F := Ideal) c i arg2 harg2 arg3 harg3 arg4 harg4 arg5 harg5 arg6 harg6 hc0 hc1 x0 x1 x2 xs0 = k1_pay2 (F := Ideal) x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S1024x2048) hz]
  simp only [View.readAt_eq_ld, harg2.read_unread, harg3.read_unread, harg6.read_unread, View.ld_unit_zero (S := S1024x512) hz, View.ld_unit_zero (S := S512x2048) hz, View.ld_unit_zero (S := S1024x2048) hz]

/-- The last depth block: the accumulator as in the middle ones, -/
theorem acc_C (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec Ideal S1024x512 .f32) (x1 : Vec Ideal S512x2048 .f32) (x2 : Vec Ideal S1x2048 .f32) (xs0 : Vec Ideal S1024x2048 .f32) :
    sout1_C_0 (F := Ideal) c i arg2 harg2 arg3 harg3 arg4 harg4 arg5 harg5 arg6 harg6 hc0 hc1 x0 x1 x2 xs0 = k1_pay2 (F := Ideal) x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S1024x2048) hz]
  simp only [View.readAt_eq_ld, harg2.read_unread, harg3.read_unread, harg6.read_unread, View.ld_unit_zero (S := S1024x512) hz, View.ld_unit_zero (S := S512x2048) hz, View.ld_unit_zero (S := S1024x2048) hz]

/-- and the result's window receives the accumulator plus the bias row. -/
theorem out_C (c : Dev nD) (i : grid1.Coords) (arg2 : Memref sig .tc .vmem S1024x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec Ideal S1024x512 .f32) (x1 : Vec Ideal S512x2048 .f32) (x2 : Vec Ideal S1x2048 .f32) (xs0 : Vec Ideal S1024x2048 .f32) :
    out1_C_3 (F := Ideal) c i arg2 harg2 arg3 harg3 arg4 harg4 arg5 harg5 arg6 harg6 hc0 hc1 x0 x1 x2 xs0 = k1_pay3 (F := Ideal) (k1_pay2 (F := Ideal) x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1024x2048) hz, View.readCov_unit_zero (S := S1024x2048) _ hz]
  simp only [View.readAt_eq_ld, harg2.read_unread, harg3.read_unread, harg4.read_unread, harg6.read_unread,
    View.ld_unit_zero (S := S1024x512) hz, View.ld_unit_zero (S := S512x2048) hz, View.ld_unit_zero (S := S1024x2048) hz, View.ld_unit_zero (S := S1x2048) hz]

/-! ## The grid: point t = 96 * i + k -/

theorem idx0 : ∀ t : Fin grid1.N, win1_0.index t 0 = t.val / 96 ∧ win1_0.index t 1 = t.val % 96 := by decide +kernel
theorem idx1 : ∀ t : Fin grid1.N, win1_1.index t 0 = t.val % 96 ∧ win1_1.index t 1 = 0 := by decide +kernel
theorem idx2 : ∀ t : Fin grid1.N, win1_2.index t 0 = 0 ∧ win1_2.index t 1 = 0 := by decide +kernel
theorem idx3 : ∀ t : Fin grid1.N, win1_3.index t 0 = t.val / 96 ∧ win1_3.index t 1 = 0 := by decide +kernel

variable (V : (c : Dev nD) → (b : Ref sig .tc) → Buf (Elt Ideal) ((c : Thread nD τ).loc b)) (c : Dev nD)

/-- The three input arrays as the region finds them, at their literal types. -/
abbrev XA : (⟨S2048x49152, .f32⟩ : BufTy).Contents (Elt Ideal) := V c main_arg2
abbrev WA : (⟨S49152x2048, .f32⟩ : BufTy).Contents (Elt Ideal) := V c main_arg3
abbrev BA : (⟨S1x2048, .f32⟩ : BufTy).Contents (Elt Ideal) := V c main_v2

/-- The windows' blocks at point t, at their literal types. -/
abbrev xblk (t : Fin cfg1.N) : Vec Ideal S1024x512 .f32 := iblk1 V c 0 t
abbrev wblk (t : Fin cfg1.N) : Vec Ideal S512x2048 .f32 := iblk1 V c 1 t
abbrev bblk (t : Fin cfg1.N) : Vec Ideal S1x2048 .f32 := iblk1 V c 2 t

/-- Row p of row tile t / 96. -/
def rowIx (t : Fin cfg1.N) (p : Fin 1024) : Fin 2048 :=
  ⟨1024 * (t.val / 96) + p.val, by have h := t.isLt; have hN : cfg1.N = 192 := N_1; omega⟩
/-- Column j of depth block t % 96. -/
def depIx (t : Fin cfg1.N) (j : Fin 512) : Fin 49152 :=
  ⟨(t.val % 96) * 512 + j.val, by omega⟩

theorem xblk_apply (t : Fin cfg1.N) (p : Fin 1024) (j : Fin 512) :
    xblk V c t (ix2 p j) = XA V c (ix2 (rowIx t p) (depIx t j)) := by
  show V c main_arg2 (((cfg1.win 0).blk t).view.emb (ix2 p j)) = V c main_arg2 _
  refine congrArg (V c main_arg2) (funext fun a => Fin.ext ?_)
  match a with
  | ⟨0, _⟩ =>
    show win1_0.index t 0 * 1024 + 1 * p.val = 1024 * (t.val / 96) + p.val
    rw [(idx0 t).1]; omega
  | ⟨1, _⟩ =>
    show win1_0.index t 1 * 512 + 1 * j.val = (t.val % 96) * 512 + j.val
    rw [(idx0 t).2]; omega

theorem wblk_apply (t : Fin cfg1.N) (j : Fin 512) (q : Fin 2048) :
    wblk V c t (ix2 j q) = WA V c (ix2 (depIx t j) q) := by
  show V c main_arg3 (((cfg1.win 1).blk t).view.emb (ix2 j q)) = V c main_arg3 _
  refine congrArg (V c main_arg3) (funext fun a => Fin.ext ?_)
  match a with
  | ⟨0, _⟩ =>
    show win1_1.index t 0 * 512 + 1 * j.val = (t.val % 96) * 512 + j.val
    rw [(idx1 t).1]; omega
  | ⟨1, _⟩ =>
    show win1_1.index t 1 * 2048 + 1 * q.val = q.val
    rw [(idx1 t).2]; omega

theorem bblk_apply (t : Fin cfg1.N) (q : Fin 2048) :
    bblk V c t (ix2 0 q) = BA V c (ix2 0 q) := by
  show V c main_v2 (((cfg1.win 2).blk t).view.emb (ix2 0 q)) = V c main_v2 _
  refine congrArg (V c main_v2) (funext fun a => Fin.ext ?_)
  match a with
  | ⟨0, _⟩ =>
    show win1_2.index t 0 * 1 + 1 * 0 = 0
    rw [(idx2 t).1]
  | ⟨1, _⟩ =>
    show win1_2.index t 1 * 2048 + 1 * q.val = q.val
    rw [(idx2 t).2]; omega

/-! ## The accumulator after each point: the partial block sum of its row tile -/

/-- The products along the depth, as a sequence: term n of row r and column q (zero past the depth). -/
def term (r : Fin 2048) (q : Fin 2048) : ℕ → EReal := fun n =>
  if h : n < 49152 then XA V c (ix2 r ⟨n, h⟩) * WA V c (ix2 ⟨n, h⟩ q) else 0

/-- The product of point t's two blocks at (p, q) is the depth block t % 96 of the sequence. -/
theorem blockTerm (t : Fin cfg1.N) (p : Fin 1024) (q : Fin 2048) :
    (∑ j : Fin 512, xblk V c t (ix2 p j) * wblk V c t (ix2 j q))
      = ∑ j : Fin 512, term V c (rowIx t p) q ((t.val % 96) * 512 + j.val) := by
  refine Finset.sum_congr rfl fun j _ => ?_
  rw [xblk_apply, wblk_apply]
  unfold term
  rw [dif_pos (show (t.val % 96) * 512 + j.val < 49152 by omega)]
  rfl

theorem acc_inv : ∀ (n : ℕ) (hn : n < cfg1.N) (p : Fin 1024) (q : Fin 2048),
    (outsAt1 V c n hn).2 (ix2 p q) = blockAcc (term V c (rowIx ⟨n, hn⟩ p) q) (n % 96) := by
  intro n
  induction n using Nat.strong_induction_on with
  | _ n ih =>
    intro hn p q
    have hN : cfg1.N = 192 := N_1
    by_cases h0 : n % 96 = 0
    · have h1 : ¬n % 96 = 95 := by omega
      have e : outsAt1 V c n hn = _ := outsAt1_A V c ⟨n, hn⟩ h0 h1
      rw [e]
      dsimp only
      refine (congrFun (acc_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) ((hcond1_0 ⟨n, hn⟩).mpr h0) (fun h => h1 ((hcond1_1 ⟨n, hn⟩).mp h)) (xblk V c ⟨n, hn⟩) (wblk V c ⟨n, hn⟩) (bblk V c ⟨n, hn⟩)) (ix2 p q)).trans ?_
      refine (pay2_1 (xblk V c ⟨n, hn⟩) (wblk V c ⟨n, hn⟩) (k1_pay1 (F := Ideal)) p q).trans ?_
      rw [pay1_1, zero_add, blockTerm, h0, blockAcc_zero]
      refine Finset.sum_congr rfl fun j _ => ?_
      rw [Nat.zero_mul, Nat.zero_add]
    · have hpos : n ≠ 0 := by omega
      have hm : n - 1 < n := by omega
      have hn' : n - 1 < cfg1.N := Nat.lt_of_le_of_lt (Nat.sub_le _ _) hn
      have hprev := ih (n - 1) hm hn' p q
      have hrow : rowIx ⟨n - 1, hn'⟩ p = rowIx ⟨n, hn⟩ p := Fin.ext (by unfold rowIx; dsimp only; omega)
      have hk : n % 96 = (n - 1) % 96 + 1 := by omega
      have key : blockAcc (term V c (rowIx ⟨n, hn⟩ p) q) (n % 96)
          = blockAcc (term V c (rowIx ⟨n, hn⟩ p) q) ((n - 1) % 96)
            + ∑ j : Fin 512, term V c (rowIx ⟨n, hn⟩ p) q ((n % 96) * 512 + j.val) := by
        rw [hk]; exact blockAcc_succ _ _
      by_cases h1 : n % 96 = 95
      · have e : outsAt1 V c n hn = _ := outsAt1_C V c ⟨n, hn⟩ h0 h1
        rw [e]
        dsimp only
        refine (congrFun (acc_C c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) ((hcond1_1 ⟨n, hn⟩).mpr h1) (xblk V c ⟨n, hn⟩) (wblk V c ⟨n, hn⟩) (bblk V c ⟨n, hn⟩) (outsAt1 V c (n - 1) hn').2) (ix2 p q)).trans ?_
        refine (pay2_1 (xblk V c ⟨n, hn⟩) (wblk V c ⟨n, hn⟩) (outsAt1 V c (n - 1) hn').2 p q).trans ?_
        rw [hprev, hrow, blockTerm]
        exact key.symm
      · have e : outsAt1 V c n hn = _ := outsAt1_B V c ⟨n, hn⟩ h0 h1
        rw [e]
        dsimp only
        refine (congrFun (acc_B c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) (fun h => h1 ((hcond1_1 ⟨n, hn⟩).mp h)) (xblk V c ⟨n, hn⟩) (wblk V c ⟨n, hn⟩) (bblk V c ⟨n, hn⟩) (outsAt1 V c (n - 1) hn').2) (ix2 p q)).trans ?_
        refine (pay2_1 (xblk V c ⟨n, hn⟩) (wblk V c ⟨n, hn⟩) (outsAt1 V c (n - 1) hn').2 p q).trans ?_
        rw [hprev, hrow, blockTerm]
        exact key.symm

/-! ## The result's window at the last depth block, and the array after the region -/

/-- At the last depth block the result's window receives the accumulator's new contents plus the bias row. -/
theorem res_C (t : Fin cfg1.N) (h1 : t.val % 96 = 95) (p : Fin 1024) (q : Fin 2048) :
    (outsAt1 V c t.val t.isLt).1 (ix2 p q) = (outsAt1 V c t.val t.isLt).2 (ix2 p q) + bblk V c t (ix2 0 q) := by
  have h0 : ¬t.val % 96 = 0 := by omega
  rw [outsAt1_C V c t h0 h1]
  dsimp only
  refine (congrFun (out_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).trans ?_
  refine (pay3_1 _ (bblk V c t) p q).trans ?_
  exact congrArg (· + bblk V c t (ix2 0 q)) (congrFun (acc_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).symm

/-- The sequence's sum over the whole depth is the specification's sum. -/
theorem sum_term (r : Fin 2048) (q : Fin 2048) :
    (∑ n : Fin 49152, term V c r q n.val) = ∑ n : Fin 49152, XA V c (ix2 r n) * WA V c (ix2 n q) :=
  Finset.sum_congr rfl fun n _ => by unfold term; rw [dif_pos n.isLt]

/-- So at the last depth block the window holds the specification at the rows of its tile. -/
theorem res_eq (t : Fin cfg1.N) (h1 : t.val % 96 = 95) (p : Fin 1024) (q : Fin 2048) :
    (outsAt1 V c t.val t.isLt).1 (ix2 p q) = encode1 (XA V c) (WA V c) (BA V c) (ix2 (rowIx t p) q) := by
  rw [res_C V c t h1 p q, acc_inv V c t.val t.isLt p q, h1, blockAcc_last, sum_term, bblk_apply]
  rfl

/-- What the write-back at a point of the last depth block writes is that point's block of the specification. -/
theorem flushed_eq (t : Fin cfg1.N) (hf : (cfg1.win 3).flush t = true) :
    (dat1 (F := Ideal) V c).flushed 3 t
      = ((cfg1.win 3).blk t).view.read (Elt Ideal) (encode1 (XA V c) (WA V c) (BA V c)) := by
  have h1 : t.val % 96 = 95 := (flush1_3 t).mp hf
  funext y
  have hp : (y 0).val < 1024 := (y 0).isLt
  have hq : (y 1).val < 2048 := (y 1).isLt
  have ey : (cfg1.win 3).xinj (grid1.coords t) y = ix2 (⟨(y 0).val, hp⟩ : Fin 1024) (⟨(y 1).val, hq⟩ : Fin 2048) :=
    funext fun a => by match a with | ⟨0, _⟩ => rfl | ⟨1, _⟩ => rfl
  have ee : ((cfg1.win 3).blk t).view.emb y = ix2 (rowIx t ⟨(y 0).val, hp⟩) (⟨(y 1).val, hq⟩ : Fin 2048) :=
    funext fun a => Fin.ext (by
      match a with
      | ⟨0, _⟩ =>
        show win1_3.index t 0 * 1024 + 1 * (y 0).val = 1024 * (t.val / 96) + (y 0).val
        rw [(idx3 t).1]; omega
      | ⟨1, _⟩ =>
        show win1_3.index t 1 * 2048 + 1 * (y 1).val = (y 1).val
        rw [(idx3 t).2]; omega)
  rw [View.read_apply]
  show (cfg1.win 3).cut (grid1.coords t) ((dat1 V c).after 3 t) y = _
  rw [after1_3]
  show (outsAt1 V c t.val t.isLt).1 ((cfg1.win 3).xinj (grid1.coords t) y) = _
  refine (congrArg (outsAt1 V c t.val t.isLt).1 ey).trans ?_
  refine Eq.trans ?_ (congrArg (encode1 (XA V c) (WA V c) (BA V c)) ee).symm
  exact res_eq V c t h1 _ _

/-- Row r of the result is written back at the last depth block of its row tile. -/
theorem cover (i : S2048x2048.Idx) :
    ∃ t : Fin cfg1.N, (cfg1.win 3).flush t = true ∧ i ∈ ((cfg1.win 3).blk t).view.set := by
  have hN : cfg1.N = 192 := N_1
  have h0 : (i 0).val < 2048 := (i 0).isLt
  have h1 : (i 1).val < 2048 := (i 1).isLt
  have ht : 96 * ((i 0).val / 1024) + 95 < cfg1.N := by omega
  refine ⟨⟨96 * ((i 0).val / 1024) + 95, ht⟩, (flush1_3 _).mpr (by dsimp only; omega), ?_⟩
  show i ∈ ((View.whole main_v3).slice (win1_3.rect ⟨96 * ((i 0).val / 1024) + 95, ht⟩)).set
  rw [View.set_slice_whole, Rect.mem_set_unit]
  intro a
  match a with
  | ⟨0, _⟩ =>
    show win1_3.index ⟨96 * ((i 0).val / 1024) + 95, ht⟩ 0 * 1024 ≤ (i 0).val
      ∧ (i 0).val < win1_3.index ⟨96 * ((i 0).val / 1024) + 95, ht⟩ 0 * 1024 + 1024
    rw [(idx3 _).1]; dsimp only; omega
  | ⟨1, _⟩ =>
    show win1_3.index ⟨96 * ((i 0).val / 1024) + 95, ht⟩ 1 * 2048 ≤ (i 1).val
      ∧ (i 1).val < win1_3.index ⟨96 * ((i 0).val / 1024) + 95, ht⟩ 1 * 2048 + 2048
    rw [(idx3 _).2]; omega

/-- After the region the result array holds the specification: (images · weights) plus the bias, at every index. -/
theorem final1 : (dat1 (F := Ideal) V c).arrAt 3 cfg1.N = encode1 (V c main_arg2) (V c main_arg3) (V c main_v2) :=
  (dat1 (F := Ideal) V c).arrAt_eq_of_cover 3 (encode1 (XA V c) (WA V c) (BA V c)) (flushed_eq V c) (cover)

end Cert.KernelIdeal.ValueR1

end
-- ==== Proof.RefEncode.lean ====
import proofs.«163044_j46351287059071_1_alg».proof.Proof.Gen.ReferenceIdeal.Read
import Idealize.ShloMosaic.Lib.ValueIdx

/-!
# The reference's two affine maps, read at an index

With exact arithmetic on the extended reals, the reference's `dot_general` followed by the addition of the
broadcast bias is, at row `r` and column `c`,
`(∑ k < 49152, x[r, k] * w[k, c]) + b[c]`.
This is stated once for the 1024-row operand and once for the 2048-row operand.
-/

noncomputable section

namespace Cert.ReferenceIdeal.RefValue

open Cert.ReferenceIdeal Cert.ReferenceIdeal.Gen Cert.ReferenceIdeal.Read Idealize.ShloMosaic Idealize.ShloMosaic.ValueIdx

/-- Row `r`, column `c` of `x · w + b` for the 1024-row operand: the full sum over the 49152 contracted
    indices, plus the bias at column `c`. -/
theorem zs_apply (x0 : (⟨S1024x49152, .f32⟩ : BufTy).Contents (Elt Ideal))
    (x3 : (⟨S49152x2048, .f32⟩ : BufTy).Contents (Elt Ideal))
    (x4 : (⟨S2048, .f32⟩ : BufTy).Contents (Elt Ideal)) (r : Fin 1024) (c : Fin 2048) :
    (addf (Host.dotGeneral (F := Ideal) (φ₁ := .f32) (φ₂ := .f32) dot_S1024x49152_S49152x2048_S1024x2048_1_0_0_1_n_n none x0 x3) (broadcastInDim S1024x2048 ![0, 1] bcast_S1x2048_S1024x2048_0_1 (broadcastInDim S1x2048 ![1] bcast_S2048_S1x2048_1 x4))) (ix2 r c)
      = (∑ k : Fin 49152, x0 (ix2 r k) * x3 (ix2 k c)) + x4 (ix1 c) := by
  refine (congrFun (show _ = val_main_v3 (F := Ideal) x0 x3 x4 by
    unfold val_main_v3 val_main_v2 val_main_v1 val_main_v0; rfl) (ix2 r c)).trans ?_
  rw [val_main_v3_apply, val_main_v2_apply, val_main_v1_apply, val_main_v0_apply, Ideal.addf_def]
  have el : ∀ k : Fin 49152, lidx_main_v0 (ix2 r c) k = ix2 r k := fun k =>
    funext fun a => Fin.ext (by match a with | ⟨0, _⟩ => rfl | ⟨1, _⟩ => rfl)
  have er : ∀ k : Fin 49152, ridx_main_v0 (ix2 r c) k = ix2 k c := fun k =>
    funext fun a => Fin.ext (by match a with | ⟨0, _⟩ => rfl | ⟨1, _⟩ => rfl)
  have eb : idx_main_v1 (idx_main_v2 (ix2 r c)) = ix1 c :=
    funext fun a => Fin.ext (by match a with | ⟨0, _⟩ => rfl)
  rw [eb]
  refine congrArg (· + x4 (ix1 c)) (Finset.sum_congr rfl fun k _ => ?_)
  rw [el k, er k]

/-- Row `r`, column `c` of `x · w + b` for the 2048-row operand. -/
theorem zq_apply (x2 : (⟨S2048x49152, .f32⟩ : BufTy).Contents (Elt Ideal))
    (x3 : (⟨S49152x2048, .f32⟩ : BufTy).Contents (Elt Ideal))
    (x4 : (⟨S2048, .f32⟩ : BufTy).Contents (Elt Ideal)) (r : Fin 2048) (c : Fin 2048) :
    (addf (Host.dotGeneral (F := Ideal) (φ₁ := .f32) (φ₂ := .f32) dot_S2048x49152_S49152x2048_S2048x2048_1_0_0_1_n_n none x2 x3) (broadcastInDim S2048x2048 ![0, 1] bcast_S1x2048_S2048x2048_0_1 (broadcastInDim S1x2048 ![1] bcast_S2048_S1x2048_1 x4))) (ix2 r c)
      = (∑ k : Fin 49152, x2 (ix2 r k) * x3 (ix2 k c)) + x4 (ix1 c) := by
  refine (congrFun (show _ = val_main_v7 (F := Ideal) x2 x3 x4 by
    unfold val_main_v7 val_main_v6 val_main_v5 val_main_v4; rfl) (ix2 r c)).trans ?_
  rw [val_main_v7_apply, val_main_v6_apply, val_main_v5_apply, val_main_v4_apply, Ideal.addf_def]
  have el : ∀ k : Fin 49152, lidx_main_v4 (ix2 r c) k = ix2 r k := fun k =>
    funext fun a => Fin.ext (by match a with | ⟨0, _⟩ => rfl | ⟨1, _⟩ => rfl)
  have er : ∀ k : Fin 49152, ridx_main_v4 (ix2 r c) k = ix2 k c := fun k =>
    funext fun a => Fin.ext (by match a with | ⟨0, _⟩ => rfl | ⟨1, _⟩ => rfl)
  have eb : idx_main_v5 (idx_main_v6 (ix2 r c)) = ix1 c :=
    funext fun a => Fin.ext (by match a with | ⟨0, _⟩ => rfl)
  rw [eb]
  refine congrArg (· + x4 (ix1 c)) (Finset.sum_congr rfl fun k _ => ?_)
  rw [el k, er k]

/-- The 1024-row affine map as a function of the index. -/
theorem zs_eq (x0 : (⟨S1024x49152, .f32⟩ : BufTy).Contents (Elt Ideal))
    (x3 : (⟨S49152x2048, .f32⟩ : BufTy).Contents (Elt Ideal))
    (x4 : (⟨S2048, .f32⟩ : BufTy).Contents (Elt Ideal)) :
    addf (Host.dotGeneral (F := Ideal) (φ₁ := .f32) (φ₂ := .f32) dot_S1024x49152_S49152x2048_S1024x2048_1_0_0_1_n_n none x0 x3) (broadcastInDim S1024x2048 ![0, 1] bcast_S1x2048_S1024x2048_0_1 (broadcastInDim S1x2048 ![1] bcast_S2048_S1x2048_1 x4))
      = fun i : S1024x2048.Idx => (∑ k : Fin 49152, x0 (ix2 (i 0) k) * x3 (ix2 k (i 1))) + x4 (ix1 (i 1)) := by
  funext i
  exact (congrArg _ (eq_ix2 i)).trans (zs_apply x0 x3 x4 (i 0) (i 1))

/-- The 2048-row affine map as a function of the index. -/
theorem zq_eq (x2 : (⟨S2048x49152, .f32⟩ : BufTy).Contents (Elt Ideal))
    (x3 : (⟨S49152x2048, .f32⟩ : BufTy).Contents (Elt Ideal))
    (x4 : (⟨S2048, .f32⟩ : BufTy).Contents (Elt Ideal)) :
    addf (Host.dotGeneral (F := Ideal) (φ₁ := .f32) (φ₂ := .f32) dot_S2048x49152_S49152x2048_S2048x2048_1_0_0_1_n_n none x2 x3) (broadcastInDim S2048x2048 ![0, 1] bcast_S1x2048_S2048x2048_0_1 (broadcastInDim S1x2048 ![1] bcast_S2048_S1x2048_1 x4))
      = fun i : S2048x2048.Idx => (∑ k : Fin 49152, x2 (ix2 (i 0) k) * x3 (ix2 k (i 1))) + x4 (ix1 (i 1)) := by
  funext i
  exact (congrArg _ (eq_ix2 i)).trans (zq_apply x2 x3 x4 (i 0) (i 1))

end Cert.ReferenceIdeal.RefValue

end
-- ==== Proof.Tail.lean ====
import proofs.«163044_j46351287059071_1_alg».proof.Proof.Gen.KernelIdeal.Launch
import proofs.«163044_j46351287059071_1_alg».proof.Proof.Gen.ReferenceIdeal.Run
import Idealize.ShloMosaic.Lib.StableHlo.Run

/-! # The host operations after the two matrix products, as one function

Both programs finish with the same host computation on three values — the support embeddings `zs`, the labels
`lab` and the query embeddings `zq`: class means of `zs` by label, then the cosine of every query row against every
class mean. It is named here once per program, over that program's own shape records, and the two are equal. -/

noncomputable section

namespace Cert.KernelIdeal.Tail

open Cert.KernelIdeal Cert.KernelIdeal.Gen Idealize.ShloMosaic Idealize.ShloMosaic.TcCoe Idealize.ShloMosaic.StableHlo

variable {F : FTy → Type} [FloatOps F]

/-- The class means: the rows of `zs` summed by label into 64 classes (a scatter-add into zeros), each class's sum
    divided by its count (the same scatter-add of ones). -/
def protoK (zs : (⟨S1024x2048, .f32⟩ : BufTy).Contents (Elt F)) (lab : (⟨S1024, .i32⟩ : BufTy).Contents (Elt F)) :
    (⟨S64x2048, .f32⟩ : BufTy).Contents (Elt F) :=
  Host.divf (F := F)
    (Host.scatterAdd (F := F) scatter_S64x2048_S1024x1_S1024x2048_1_0_0_1
      (broadcastInDim S64x2048 ![] bcast_S_S64x2048 (constant (F := F) S_ .f32 0x00000000#32))
      (broadcastInDim S1024x1 ![0] bcast_S1024_S1024x1_0 lab)
      zs)
    (broadcastInDim S64x2048 ![0, 1] bcast_S64x1_S64x2048_0_1
      (broadcastInDim S64x1 ![0] bcast_S64_S64x1_0
        (Host.scatterAdd (F := F) scatter_S64_S1024x1_S1024_n_0_0_1
          (broadcastInDim S64 ![] bcast_S_S64 (constant (F := F) S_ .f32 0x00000000#32))
          (broadcastInDim S1024x1 ![0] bcast_S1024_S1024x1_0 lab)
          (broadcastInDim S1024 ![] bcast_S_S1024 (constant (F := F) S_ .f32 0x3F800000#32)))))

/-- The cosine table: the products of the rows of `zq` with the class means, each divided by the product of the
    two rows' Euclidean norms, that product kept above a small positive constant. -/
def tailK (zs : (⟨S1024x2048, .f32⟩ : BufTy).Contents (Elt F)) (lab : (⟨S1024, .i32⟩ : BufTy).Contents (Elt F))
    (zq : (⟨S2048x2048, .f32⟩ : BufTy).Contents (Elt F)) : (⟨S2048x64, .f32⟩ : BufTy).Contents (Elt F) :=
  Host.divf (F := F)
    (Host.dotGeneral (F := F) dot_S2048x2048_S2048x64_S2048x64_1_0_0_1_n_n none zq
      (transpose S2048x64 [1, 0] (protoK zs lab) transposes_S64x2048_S2048x64_1_0))
    (maximumf
      (mulf
        (broadcastInDim S2048x64 ![0, 1] bcast_S2048x1_S2048x64_0_1
          (broadcastInDim S2048x1 ![0] bcast_S2048_S2048x1_0
            (Host.sqrt (F := F)
              (Host.reduceAdd (F := F) (mulf zq zq) (constant (F := F) S_ .f32 0x00000000#32) reducesTo_S2048x2048_S2048_d1 h_S_))))
        (broadcastInDim S2048x64 ![0, 1] bcast_S1x64_S2048x64_0_1
          (broadcastInDim S1x64 ![1] bcast_S64_S1x64_1
            (Host.sqrt (F := F)
              (Host.reduceAdd (F := F) (mulf (protoK zs lab) (protoK zs lab)) (constant (F := F) S_ .f32 0x00000000#32)
                reducesTo_S64x2048_S64_d1 h_S_)))))
      (broadcastInDim S2048x64 ![] bcast_S_S2048x64 (constant (F := F) S_ .f32 0x358637BD#32)))

set_option maxRecDepth 8192 in
/-- What the last buffer holds after the four stretches of host operations, from any contents `Wv`: the function
    above of what `Wv` holds at the three buffers the stretches read. -/
theorem tail_read (Wv : Valuation τ sig (Elt F)) :
    StableHlo.after hostOps2_3 (StableHlo.after hostOps2_2 (StableHlo.after hostOps2_1 (StableHlo.after hostOps2 Wv)))
        (Proc.devRef .tc main_v25)
      = tailK (Wv (Proc.devRef .tc main_v1)) (Wv (Proc.devRef .tc main_arg1)) (Wv (Proc.devRef .tc main_v3)) := by
  after_results_simp <;> rfl

end Cert.KernelIdeal.Tail

namespace Cert.ReferenceIdeal.Tail

open Cert.ReferenceIdeal Cert.ReferenceIdeal.Gen Idealize.ShloMosaic Idealize.ShloMosaic.TcCoe Idealize.SL.Sem Idealize.ShloMosaic.StableHlo

variable {F : FTy → Type} [FloatOps F]

/-- The class means: the rows of `zs` summed by label into 64 classes (a scatter-add into zeros), each class's sum
    divided by its count (the same scatter-add of ones). -/
def protoR (zs : (⟨S1024x2048, .f32⟩ : BufTy).Contents (Elt F)) (lab : (⟨S1024, .i32⟩ : BufTy).Contents (Elt F)) :
    (⟨S64x2048, .f32⟩ : BufTy).Contents (Elt F) :=
  Host.divf (F := F)
    (Host.scatterAdd (F := F) scatter_S64x2048_S1024x1_S1024x2048_1_0_0_1
      (broadcastInDim S64x2048 ![] bcast_S_S64x2048 (constant (F := F) S_ .f32 0x00000000#32))
      (broadcastInDim S1024x1 ![0] bcast_S1024_S1024x1_0 lab)
      zs)
    (broadcastInDim S64x2048 ![0, 1] bcast_S64x1_S64x2048_0_1
      (broadcastInDim S64x1 ![0] bcast_S64_S64x1_0
        (Host.scatterAdd (F := F) scatter_S64_S1024x1_S1024_n_0_0_1
          (broadcastInDim S64 ![] bcast_S_S64 (constant (F := F) S_ .f32 0x00000000#32))
          (broadcastInDim S1024x1 ![0] bcast_S1024_S1024x1_0 lab)
          (broadcastInDim S1024 ![] bcast_S_S1024 (constant (F := F) S_ .f32 0x3F800000#32)))))

/-- The cosine table: the products of the rows of `zq` with the class means, each divided by the product of the
    two rows' Euclidean norms, that product kept above a small positive constant. -/
def tailR (zs : (⟨S1024x2048, .f32⟩ : BufTy).Contents (Elt F)) (lab : (⟨S1024, .i32⟩ : BufTy).Contents (Elt F))
    (zq : (⟨S2048x2048, .f32⟩ : BufTy).Contents (Elt F)) : (⟨S2048x64, .f32⟩ : BufTy).Contents (Elt F) :=
  Host.divf (F := F)
    (Host.dotGeneral (F := F) dot_S2048x2048_S2048x64_S2048x64_1_0_0_1_n_n none zq
      (transpose S2048x64 [1, 0] (protoR zs lab) transposes_S64x2048_S2048x64_1_0))
    (maximumf
      (mulf
        (broadcastInDim S2048x64 ![0, 1] bcast_S2048x1_S2048x64_0_1
          (broadcastInDim S2048x1 ![0] bcast_S2048_S2048x1_0
            (Host.sqrt (F := F)
              (Host.reduceAdd (F := F) (mulf zq zq) (constant (F := F) S_ .f32 0x00000000#32) reducesTo_S2048x2048_S2048_d1 h_S_))))
        (broadcastInDim S2048x64 ![0, 1] bcast_S1x64_S2048x64_0_1
          (broadcastInDim S1x64 ![1] bcast_S64_S1x64_1
            (Host.sqrt (F := F)
              (Host.reduceAdd (F := F) (mulf (protoR zs lab) (protoR zs lab)) (constant (F := F) S_ .f32 0x00000000#32)
                reducesTo_S64x2048_S64_d1 h_S_)))))
      (broadcastInDim S2048x64 ![] bcast_S_S2048x64 (constant (F := F) S_ .f32 0x358637BD#32)))

set_option maxRecDepth 8192 in
/-- The reference's result is this function of its own two matrix products (each plus the bias row) and its labels. -/
theorem res_eq (m : (ℓ : Loc nD τ sig) → Buf (Elt F) ℓ) (c : Dev nD) :
    Cert.ReferenceIdeal.Value.res_main_v29 m c
      = tailR
          (addf (Host.dotGeneral (F := F) dot_S1024x49152_S49152x2048_S1024x2048_1_0_0_1_n_n none (m ((c.tc : Thread nD τ).loc main_arg0)) (m ((c.tc : Thread nD τ).loc main_arg3)))
            (broadcastInDim S1024x2048 ![0, 1] bcast_S1x2048_S1024x2048_0_1 (broadcastInDim S1x2048 ![1] bcast_S2048_S1x2048_1 (m ((c.tc : Thread nD τ).loc main_arg4)))))
          (m ((c.tc : Thread nD τ).loc main_arg1))
          (addf (Host.dotGeneral (F := F) dot_S2048x49152_S49152x2048_S2048x2048_1_0_0_1_n_n none (m ((c.tc : Thread nD τ).loc main_arg2)) (m ((c.tc : Thread nD τ).loc main_arg3)))
            (broadcastInDim S2048x2048 ![0, 1] bcast_S1x2048_S2048x2048_0_1 (broadcastInDim S1x2048 ![1] bcast_S2048_S1x2048_1 (m ((c.tc : Thread nD τ).loc main_arg4))))) := by
  unfold Cert.ReferenceIdeal.Value.res_main_v29 tailR protoR
  rfl

end Cert.ReferenceIdeal.Tail

namespace Cert

open Idealize.ShloMosaic

variable {F : FTy → Type} [FloatOps F]

/-- The two programs' records for the shared host computation have the same fields, so the two functions are one. -/
theorem tail_eq (zs : (⟨Cert.KernelIdeal.S1024x2048, .f32⟩ : BufTy).Contents (Elt F)) (lab : (⟨Cert.KernelIdeal.S1024, .i32⟩ : BufTy).Contents (Elt F))
    (zq : (⟨Cert.KernelIdeal.S2048x2048, .f32⟩ : BufTy).Contents (Elt F)) :
    Cert.KernelIdeal.Tail.tailK (F := F) zs lab zq = Cert.ReferenceIdeal.Tail.tailR (F := F) zs lab zq := rfl

end Cert

end
-- ==== Proof.Bridge.lean ====
import proofs.«163044_j46351287059071_1_alg».proof.Proof.Encode
import proofs.«163044_j46351287059071_1_alg».proof.Proof.RefEncode
import proofs.«163044_j46351287059071_1_alg».proof.Proof.Tail
import Idealize.ShloMosaic.Lib.ValueLayout
import Idealize.ShloMosaic.Lib.StableHlo.Run

/-! # The reference's result as the shared host computation of the specified products

The reference forms each product-plus-bias with the bias a vector of 2048 entries; the kernel's program first
recasts that vector as a 1 x 2048 row. Reading the row at `(0, q)` gives the vector at `q`, so the reference's two
values are the specified products with the recast row, and its result is the shared host computation of them. -/

noncomputable section

namespace Cert.Bridge

section Kernel

open Cert.KernelIdeal Cert.KernelIdeal.Gen Idealize.ShloMosaic Idealize.ShloMosaic.ValueIdx Idealize.ShloMosaic.TcCoe
  Idealize.ShloMosaic.StableHlo

/-- The bias vector recast as a 1 x 2048 row. -/
def biasRow (b : (⟨S2048, .f32⟩ : BufTy).Contents (Elt Ideal)) : (⟨S1x2048, .f32⟩ : BufTy).Contents (Elt Ideal) :=
  shapeCast S1x2048 b shapeCasts_S2048_S1x2048

/-- The row at `(0, q)` is the vector at `q`: both have row-major position `q`. -/
theorem row_apply (b : (⟨S2048, .f32⟩ : BufTy).Contents (Elt Ideal)) (q : Fin 2048) :
    biasRow b (ix2 0 q) = b (ix1 q) :=
  shapeCast_a_1a_apply b shapeCasts_S2048_S1x2048 0 q

/-- The first recast writes the row of the bias vector it reads. -/
theorem after_hostOps0_v0 (Wv : Valuation τ sig (Elt Ideal)) :
    StableHlo.after (hostOps0 (F := Ideal)) Wv (Proc.devRef .tc main_v0) = biasRow (Wv (Proc.devRef .tc main_arg4)) := by
  after_results_simp <;> rfl

/-- The second recast likewise. -/
theorem after_hostOps1_v2 (Wv : Valuation τ sig (Elt Ideal)) :
    StableHlo.after (hostOps1 (F := Ideal)) Wv (Proc.devRef .tc main_v2) = biasRow (Wv (Proc.devRef .tc main_arg4)) := by
  after_results_simp <;> rfl

end Kernel

section Reference

open Cert.ReferenceIdeal Cert.ReferenceIdeal.Gen Idealize.ShloMosaic Idealize.ShloMosaic.ValueIdx Idealize.ShloMosaic.TcCoe
  Idealize.SL.Sem Idealize.ShloMosaic.StableHlo

/-- The reference's 1024-row product plus the broadcast bias is the specified product with the recast row. -/
theorem ref_zs (x0 : (⟨S1024x49152, .f32⟩ : BufTy).Contents (Elt Ideal)) (x3 : (⟨S49152x2048, .f32⟩ : BufTy).Contents (Elt Ideal))
    (x4 : (⟨S2048, .f32⟩ : BufTy).Contents (Elt Ideal)) :
    addf (Host.dotGeneral (F := Ideal) (φ₁ := .f32) (φ₂ := .f32) dot_S1024x49152_S49152x2048_S1024x2048_1_0_0_1_n_n none x0 x3)
        (broadcastInDim S1024x2048 ![0, 1] bcast_S1x2048_S1024x2048_0_1 (broadcastInDim S1x2048 ![1] bcast_S2048_S1x2048_1 x4))
      = Cert.KernelIdeal.Encode.encode0 x0 x3 (biasRow x4) := by
  rw [Cert.ReferenceIdeal.RefValue.zs_eq]
  funext i
  exact congrArg ((∑ k : Fin 49152, x0 (ix2 (i 0) k) * x3 (ix2 k (i 1))) + ·) (row_apply x4 (i 1)).symm

/-- The 2048-row product likewise. -/
theorem ref_zq (x2 : (⟨S2048x49152, .f32⟩ : BufTy).Contents (Elt Ideal)) (x3 : (⟨S49152x2048, .f32⟩ : BufTy).Contents (Elt Ideal))
    (x4 : (⟨S2048, .f32⟩ : BufTy).Contents (Elt Ideal)) :
    addf (Host.dotGeneral (F := Ideal) (φ₁ := .f32) (φ₂ := .f32) dot_S2048x49152_S49152x2048_S2048x2048_1_0_0_1_n_n none x2 x3)
        (broadcastInDim S2048x2048 ![0, 1] bcast_S1x2048_S2048x2048_0_1 (broadcastInDim S1x2048 ![1] bcast_S2048_S1x2048_1 x4))
      = Cert.KernelIdeal.Encode.encode1 x2 x3 (biasRow x4) := by
  rw [Cert.ReferenceIdeal.RefValue.zq_eq]
  funext i
  exact congrArg ((∑ k : Fin 49152, x2 (ix2 (i 0) k) * x3 (ix2 k (i 1))) + ·) (row_apply x4 (i 1)).symm

/-- The reference's result: the shared host computation of the two specified products and the labels. -/
theorem result_eq (m' : (ℓ : Loc nD τ sig) → Buf (Elt Ideal) ℓ) (c : Dev nD) :
    Cert.ReferenceIdeal.Value.res_main_v29 (F := Ideal) m' c
      = Cert.KernelIdeal.Tail.tailK (F := Ideal)
          (Cert.KernelIdeal.Encode.encode0 (m' ((c.tc : Thread nD τ).loc main_arg0)) (m' ((c.tc : Thread nD τ).loc main_arg3)) (biasRow (m' ((c.tc : Thread nD τ).loc main_arg4))))
          (m' ((c.tc : Thread nD τ).loc main_arg1))
          (Cert.KernelIdeal.Encode.encode1 (m' ((c.tc : Thread nD τ).loc main_arg2)) (m' ((c.tc : Thread nD τ).loc main_arg3)) (biasRow (m' ((c.tc : Thread nD τ).loc main_arg4)))) := by
  rw [Cert.ReferenceIdeal.Tail.res_eq, ref_zs, ref_zq]
  exact (Cert.tail_eq _ _ _).symm

end Reference

end Cert.Bridge

end
-- ==== Proof.KernelResult.lean ====
import proofs.«163044_j46351287059071_1_alg».proof.Proof.FrmI_Launch
import proofs.«163044_j46351287059071_1_alg».proof.Proof.ValueR0
import proofs.«163044_j46351287059071_1_alg».proof.Proof.ValueR1
import proofs.«163044_j46351287059071_1_alg».proof.Proof.Bridge
import proofs.«163044_j46351287059071_1_alg».proof.Proof.Tail
import proofs.«163044_j46351287059071_1_alg».proof.Proof.Encode

noncomputable section

/-! # The kernel program's result

The contents of the last buffer after the whole program, from any launch memory: the shared host computation of the two
specified products (each of its own images against the weights, plus the bias recast as a row) and the labels. -/

namespace Cert.KernelResult

open Cert.KernelIdeal Cert.KernelIdeal.Gen Cert.KernelIdeal.Hand Cert.KernelIdeal.Encode Cert.KernelIdeal.Tail Cert.Bridge
open Idealize.ShloMosaic Idealize.ShloMosaic.TcCoe Idealize.SL.Sem

variable (m : (ℓ : Loc nD τ sig) → Buf (Elt Ideal) ℓ) (c : Dev nD)

/-- The bias row the first product reads: the recast of the launched bias vector. -/
theorem V1_bias : Hand.V1 m c main_v0 = biasRow (m ((c.tc : Thread nD τ).loc main_arg4)) :=
  after_hostOps0_v0 (Hand.W0 m c)

/-- The bias row the second product reads: the same, since neither the first product nor the first recast writes the
    bias vector. -/
theorem V3_bias : Hand.V3 m c main_v2 = biasRow (m ((c.tc : Thread nD τ).loc main_arg4)) :=
  (after_hostOps1_v2 (Hand.W2 m c)).trans (congrArg biasRow
    ((Hand.W2_of_ne m c main_arg4 (by decide)).trans
      (StableHlo.after_of_writes_sub hostOps0 (Hand.W0 m c) hostOps0_writes (by decide))))

/-- The last buffer after the program. -/
theorem kernel_result :
    Hand.W8 (F := Ideal) m c (Proc.devRef .tc main_v25)
      = tailK (F := Ideal)
          (encode0 (m ((c.tc : Thread nD τ).loc main_arg0)) (m ((c.tc : Thread nD τ).loc main_arg3)) (biasRow (m ((c.tc : Thread nD τ).loc main_arg4))))
          (m ((c.tc : Thread nD τ).loc main_arg1))
          (encode1 (m ((c.tc : Thread nD τ).loc main_arg2)) (m ((c.tc : Thread nD τ).loc main_arg3)) (biasRow (m ((c.tc : Thread nD τ).loc main_arg4)))) := by
  rw [Hand.W8_eq, tail_read, Hand.W4_main_v1, Hand.W4_main_arg1, Hand.W4_main_v3, ValueR0.final0, ValueR1.final1,
    Hand.V1_main_arg0, Hand.V1_main_arg3, Hand.V3_main_arg2, Hand.V3_main_arg3, V1_bias, V3_bias]

end Cert.KernelResult

end
-- ==== Proof.lean ====
/-
  The certificate of the few-shot prototype scorer: two encodings  z = x · W + b  (support images, 1024 rows; query images,
  2048 rows), each computed by a kernel as 96 depth blocks of 512 columns accumulated in a scratch buffer and the bias added
  at the last block, then per-class means, norms and a cosine score, which both programs compute by the same host operations.

  The frames. Each program runs to the end, faults nowhere and leaves its five arguments as launched: for the kernel's
  program (word level and idealized alike) by the several-regions launch over one record per matrix product, each
  product's grid run point by point with the accumulator carried in the region's invariant; for the reference by its run.

  The value. At the ideal instance floats are extended reals and the casts to bf16 are the identity, so a depth block's
  contribution to entry (r, q) is  Σ_{j<512} x[r, 512 k + j] · W[512 k + j, q].  By induction over the grid points the
  accumulator after block k is the sum of the blocks 0..k (only commutativity and associativity of + are used: no
  finiteness), after block 95 it is the whole  Σ_{n<49152} x[r, n] · W[n, q],  and the result is that plus b[q] — entry by
  entry what the reference's dot_general plus broadcast bias gives. The remaining 32 host operations are the same
  function of (z_support, labels, z_query) in both programs and are carried as one function, never opened.
  The idealization rewrote nothing, so it is preserved trivially.
-/
import proofs.«163044_j46351287059071_1_alg».proof.Defs
import proofs.«163044_j46351287059071_1_alg».proof.Proof.Gen.Kernel
import proofs.«163044_j46351287059071_1_alg».proof.Proof.Gen.KernelIdeal
import proofs.«163044_j46351287059071_1_alg».proof.Proof.Gen.ReferenceIdeal
import proofs.«163044_j46351287059071_1_alg».proof.Proof.Gen.Pre_finite_inputs
import proofs.«163044_j46351287059071_1_alg».proof.Proof.Gen.ReferenceIdeal.Run
import proofs.«163044_j46351287059071_1_alg».proof.Proof.FrmB_Launch
import proofs.«163044_j46351287059071_1_alg».proof.Proof.FrmI_Launch
import proofs.«163044_j46351287059071_1_alg».proof.Proof.KernelResult
import proofs.«163044_j46351287059071_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the shared tail applied to the two encodings  x · W + b  and the labels. -/
theorem algebraic : Cert.algebraic_KernelIdeal_ReferenceIdeal := by
  intro m ρ m' ρ' _ hagree
  refine ⟨fun c => Cert.KernelIdeal.Tail.tailK (F := Ideal)
      (Cert.KernelIdeal.Encode.encode0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (Cert.Bridge.biasRow (m ((c.tc : Thread Cert.KernelIdeal.nD Cert.KernelIdeal.τ).loc Cert.KernelIdeal.main_arg4))))
      (m ((c.tc : Thread Cert.KernelIdeal.nD Cert.KernelIdeal.τ).loc Cert.KernelIdeal.main_arg1))
      (Cert.KernelIdeal.Encode.encode1 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.Bridge.biasRow (m ((c.tc : Thread Cert.KernelIdeal.nD Cert.KernelIdeal.τ).loc Cert.KernelIdeal.main_arg4)))), ?_, ?_⟩
  · refine (θ_run Cert.KernelIdeal.defs _ _).mono (fun r h c => ⟨?_, ?_, ?_, ?_, ?_, ?_⟩) (Cert.KernelIdeal.Hand.run_all (F := Ideal) m ρ)
    · exact (h c _ (Cert.KernelIdeal.Hand.mem_uc Cert.KernelIdeal.main_v25 (by decide))).trans (Cert.KernelResult.kernel_result m c)
    · exact (h c _ (Cert.KernelIdeal.Hand.mem_uc Cert.KernelIdeal.main_arg0 (by decide))).trans (Cert.KernelIdeal.Hand.W8_main_arg0 m c)
    · exact (h c _ (Cert.KernelIdeal.Hand.mem_uc Cert.KernelIdeal.main_arg1 (by decide))).trans (Cert.KernelIdeal.Hand.W8_main_arg1 m c)
    · exact (h c _ (Cert.KernelIdeal.Hand.mem_uc Cert.KernelIdeal.main_arg2 (by decide))).trans (Cert.KernelIdeal.Hand.W8_main_arg2 m c)
    · exact (h c _ (Cert.KernelIdeal.Hand.mem_uc Cert.KernelIdeal.main_arg3 (by decide))).trans (Cert.KernelIdeal.Hand.W8_main_arg3 m c)
    · exact (h c _ (Cert.KernelIdeal.Hand.mem_uc Cert.KernelIdeal.main_arg4 (by decide))).trans (Cert.KernelIdeal.Hand.W8_main_arg4 m c)
  · refine (θ_run Cert.ReferenceIdeal.defs _ _).mono (fun _ h c => ⟨(h c).1.trans ?_, (h c).2⟩)
      (Cert.ReferenceIdeal.Value.run (F := Ideal) m' ρ')
    rw [Cert.Bridge.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
